-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S100000 : Shape := ⟨1, ![100000]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part5 {F : FTy → Type} [FloatOps F] (main_v82 : IVec S_ 1) (main_v84 : IVec S100000 1) : IVec S_ 1 :=
  let main_c_33 : IVec S_ 1 := constantI S_ 1 1#1
  let main_v85 : IVec S_ 1 := (fun x v => Host.reduce IntOp.andi x v reducesTo_S100000_S_d0 h_S_) main_v84 main_c_33
  let main_v86 : IVec S_ 1 := andi main_v82 main_v85
  main_v86

def fn_part4 {F : FTy → Type} [FloatOps F] (main_arg3 : IVec S100000 32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S100000 32 := broadcastInDim S100000 ![] bcast_S_S100000 main_c_30
  let main_v80 : IVec S100000 1 := cmpi .sge main_arg3 main_v79
  let main_c_31 : IVec S_ 1 := constantI S_ 1 1#1
  let main_v81 : IVec S_ 1 := (fun x v => Host.reduce IntOp.andi x v reducesTo_S100000_S_d0 h_S_) main_v80 main_c_31
  let main_v82 : IVec S_ 1 := andi main_v78 main_v81
  let main_c_32 : IVec S_ 32 := constantI S_ 32 512#32
  let main_v83 : IVec S100000 32 := broadcastInDim S100000 ![] bcast_S_S100000 main_c_32
  let main_v84 : IVec S100000 1 := cmpi .slt main_arg3 main_v83
  fn_part5 (F := F) main_v82 main_v84

def fn_part3 {F : FTy → Type} [FloatOps F] (main_arg3 : IVec S100000 32) (main_arg13 : FVec F S64x64 .f32) (main_arg14 : FVec F S64 .f32) (main_arg15 : FVec F S1 .f32) (main_arg16 : FVec F S64 .f32) (main_arg17 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg3 main_arg16 main_arg17 main_v63 main_v67

def fn_part2 {F : FTy → Type} [FloatOps F] (main_arg3 : IVec S100000 32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S1 .f32) (main_arg16 : FVec F S64 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg13 main_arg14 main_arg15 main_arg16 main_arg17 main_v48 main_v49 main_v50

def fn_part1 {F : FTy → Type} [FloatOps F] (main_arg3 : IVec S100000 32) (main_arg6 : FVec F S64x64 .f32) (main_arg7 : FVec F S64 .f32) (main_arg8 : FVec F S1 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S1 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg3 main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S1600000x64 .f32) (main_arg3 : IVec S100000 32) (main_arg4 : FVec F S64x64 .f32) (main_arg5 : FVec F S64 .f32) (main_arg6 : FVec F S64x64 .f32) (main_arg7 : FVec F S64 .f32) (main_arg8 : FVec F S1 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S1 .f32) (main_arg16 : FVec F S64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg3 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S100000 : Shape := ⟨1, ![100000]⟩
abbrev S64x64 : Shape := ⟨2, ![64, 64]⟩
abbrev S64 : Shape := ⟨1, ![64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S12800x64 : Shape := ⟨2, ![12800, 64]⟩
abbrev S1x1 : Shape := ⟨2, ![1, 1]⟩
abbrev S512 : Shape := ⟨1, ![512]⟩
abbrev S100000x1 : Shape := ⟨2, ![100000, 1]⟩
abbrev S1x512 : Shape := ⟨2, ![1, 512]⟩
abbrev S5000x64 : Shape := ⟨2, ![5000, 64]⟩
abbrev S5000x1 : Shape := ⟨2, ![5000, 1]⟩
abbrev S5000 : Shape := ⟨1, ![5000]⟩
abbrev S5000x512 : Shape := ⟨2, ![5000, 512]⟩

abbrev nBuf : Space → Nat
  | .hbm => 80
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1, .f32⟩
  | .hbm, ⟨16, _⟩ => ⟨S64, .f32⟩
  | .hbm, ⟨17, _⟩ => ⟨S64, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1x64, .f32⟩
  | .hbm, ⟨32, _⟩ => ⟨S1x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1x1, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000, .f32⟩
  | .hbm, ⟨47, _⟩ => ⟨S_, .f32⟩
  | .hbm, ⟨48, _⟩ => ⟨S512, .f32⟩
  | .hbm, ⟨49, _⟩ => ⟨S100000x1, .i32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S100000, .f32⟩
  | .hbm, ⟨59, _⟩ => ⟨S100000x64, .f32⟩
  | .hbm, ⟨60, _⟩ => ⟨S_, .f32⟩
  | .hbm, ⟨61, _⟩ => ⟨S100000, .f32⟩
  | .hbm, ⟨62, _⟩ => ⟨S_, .f32⟩
  | .hbm, ⟨63, _⟩ => ⟨S512, .f32⟩
  | .hbm, ⟨64, _⟩ => ⟨S100000x1, .i32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S100000x1, .i32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S512, .f32⟩
  | .hbm, ⟨74, _⟩ => ⟨S100000x1, .i32⟩
  | .hbm, ⟨75, _⟩ => ⟨S1x64, .f32⟩
  | .hbm, ⟨76, _⟩ => ⟨S1x64, .f32⟩
  | .hbm, ⟨77, _⟩ => ⟨S1x512, .f32⟩
  | .hbm, ⟨78, _⟩ => ⟨S1x512, .f32⟩
  | .hbm, ⟨79, _⟩ => ⟨S100000x64, .f32⟩
  | .local _ .vmem, ⟨0, _⟩ => ⟨S12800x64, .f32⟩
  | .local _ .vmem, ⟨1, _⟩ => ⟨S12800x64, .f32⟩
  | .local _ .vmem, ⟨2, _⟩ => ⟨S12800x64, .f32⟩
  | .local _ .vmem, ⟨3, _⟩ => ⟨S12800x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S12800x64, .f32⟩
  | .local _ .vmem, ⟨9, _⟩ => ⟨S12800x64, .f32⟩
  | .local _ .vmem, ⟨10, _⟩ => ⟨S5000x64, .f32⟩
  | .local _ .vmem, ⟨11, _⟩ => ⟨S5000x64, .f32⟩
  | .local _ .vmem, ⟨12, _⟩ => ⟨S5000x1, .i32⟩
  | .local _ .vmem, ⟨13, _⟩ => ⟨S5000x1, .i32⟩
  | .local _ .vmem, ⟨14, _⟩ => ⟨S1x512, .f32⟩
  | .local _ .vmem, ⟨15, _⟩ => ⟨S1x512, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12800x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  bcast_S_S100000x64 : S_.BroadcastsInDim S100000x64 (![] : Fin 0 → Fin S100000x64.rank)
  bcast_S_S1 : S_.BroadcastsInDim S1 (![] : Fin 0 → Fin S1.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  reducesTo_S100000x64_S100000_d1 : S100000x64.ReducesTo [1] S100000
  h_S_ : 0 < S_.numel
  shapeCasts_S100000_S100000x1 : S100000.ShapeCasts S100000x1
  shapeCasts_S512_S1x512 : S512.ShapeCasts S1x512
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x1_S5000 : S5000x1.ShapeCasts S5000
  iota_S5000x512_d1_w32 : S5000x512.Iotas .tc 32 [1]
  shapeCasts_S5000_S5000x1 : S5000.ShapeCasts S5000x1
  broadcasts_S5000x1_S5000x512 : S5000x1.Broadcasts S5000x512
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  reduces_S5000x512_S5000 : S5000x512.Reduces [1] S5000
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S12800x64_S64x64_S12800x64_1_0_0_1_n_n_wf : DotDims.WF S12800x64 S64x64 S12800x64 [1] [0] [0] [1] [] []
  scatter_S100000x64_S1600000x1_S1600000x64_1_0_0_1_wf : ScatterDims.WF S100000x64 S1600000x1 S1600000x64 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x64.size a ≤ S1600000x64.size a
  hwx0_1 : ∀ i : grid0.Coords, EltTy.bits .f32 = 32 ∨ (Rect.block (s := S1600000x64) S12800x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S12800x64.size a ≤ S1600000x64.size a
  hwx0_6 : ∀ i : grid0.Coords, EltTy.bits .f32 = 32 ∨ (Rect.block (s := S1600000x64) S12800x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg2) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S12800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S12800x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S5000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v49) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S100000 : Shape := ⟨1, ![100000]⟩
abbrev S64x64 : Shape := ⟨2, ![64, 64]⟩
abbrev S64 : Shape := ⟨1, ![64]⟩
abbrev S1 : Shape := ⟨1, ![1]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1x1 : Shape := ⟨2, ![1, 1]⟩
abbrev S512 : Shape := ⟨1, ![512]⟩
abbrev S100000x1 : Shape := ⟨2, ![100000, 1]⟩

abbrev nBuf : Space → Nat
  | .hbm => 255
  | .vmem => 0
  | .smem => 0
  | _ => 0

abbrev hbmTy0_0 (i : Nat) : BufTy := match i % 128 with
  | 0 => ⟨S100000x64, .f32⟩
  | 1 => ⟨S2x1600000, .i32⟩
  | 2 => ⟨S1600000x64, .f32⟩
  | 3 => ⟨S100000, .i32⟩
  | 4 => ⟨S64x64, .f32⟩
  | 5 => ⟨S64, .f32⟩
  | 6 => ⟨S64x64, .f32⟩
  | 7 => ⟨S64, .f32⟩
  | 8 => ⟨S1, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S1, .f32⟩
  | 16 => ⟨S64, .f32⟩
  | 17 => ⟨S64, .f32⟩
  | 18 => ⟨S1x1600000, .i32⟩
  | 19 => ⟨S1600000, .i32⟩
  | 20 => ⟨S1x1600000, .i32⟩
  | 21 => ⟨S1600000, .i32⟩
  | 22 => ⟨S1600000x64, .f32⟩
  | 23 => ⟨S1x64, .f32⟩
  | 24 => ⟨S1600000x64, .f32⟩
  | 25 => ⟨S1600000x64, .f32⟩
  | 26 => ⟨S1600000x64, .f32⟩
  | 27 => ⟨S1600000x64, .f32⟩
  | 28 => ⟨S_, .f32⟩
  | 29 => ⟨S1600000x64, .f32⟩
  | 30 => ⟨S1600000x64, .f32⟩
  | 31 => ⟨S_, .f32⟩
  | 32 => ⟨S1600000x64, .f32⟩
  | 33 => ⟨S1600000x64, .f32⟩
  | 34 => ⟨S1600000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1600000x64, .f32⟩
  | 45 => ⟨S_, .f32⟩
  | 46 => ⟨S1600000x64, .f32⟩
  | 47 => ⟨S1600000x64, .f32⟩
  | 48 => ⟨S1600000x64, .f32⟩
  | 49 => ⟨S1x64, .f32⟩
  | 50 => ⟨S1600000x64, .f32⟩
  | 51 => ⟨S1600000x64, .f32⟩
  | 52 => ⟨S1600000x64, .f32⟩
  | 53 => ⟨S1600000x64, .f32⟩
  | 54 => ⟨S_, .f32⟩
  | 55 => ⟨S1600000x64, .f32⟩
  | 56 => ⟨S1600000x64, .f32⟩
  | 57 => ⟨S_, .f32⟩
  | 58 => ⟨S1600000x64, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S_, .f32⟩
  | 66 => ⟨S1, .f32⟩
  | 67 => ⟨S1, .f32⟩
  | 68 => ⟨S1x1, .f32⟩
  | 69 => ⟨S100000x64, .f32⟩
  | 70 => ⟨S100000x64, .f32⟩
  | 71 => ⟨S100000x64, .f32⟩
  | 72 => ⟨S_, .f32⟩
  | 73 => ⟨S100000, .f32⟩
  | 74 => ⟨S_, .f32⟩
  | 75 => ⟨S512, .f32⟩
  | 76 => ⟨S100000x1, .i32⟩
  | 77 => ⟨S512, .f32⟩
  | 78 => ⟨S_, .f32⟩
  | 79 => ⟨S512, .f32⟩
  | 80 => ⟨S512, .f32⟩
  | 81 => ⟨S_, .f32⟩
  | 82 => ⟨S512, .f32⟩
  | 83 => ⟨S512, .f32⟩
  | 84 => ⟨S_, .f32⟩
  | 85 => ⟨S100000, .f32⟩
  | 86 => ⟨S_, .f32⟩
  | 87 => ⟨S512, .f32⟩
  | 88 => ⟨S100000x1, .i32⟩
  | 89 => ⟨S512, .f32⟩
  | 90 => ⟨S512, .f32⟩
  | 91 => ⟨S100000x64, .f32⟩
  | 92 => ⟨S_, .f32⟩
  | 93 => ⟨S100000, .f32⟩
  | 94 => ⟨S_, .f32⟩
  | 95 => ⟨S512, .f32⟩
  | 96 => ⟨S100000x1, .i32⟩
  | 97 => ⟨S512, .f32⟩
  | 98 => ⟨S512, .f32⟩
  | 99 => ⟨S512, .f32⟩
  | 100 => ⟨S512, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000, .f32⟩
  | 110 => ⟨S100000x1, .f32⟩
  | 111 => ⟨S100000x64, .f32⟩
  | 112 => ⟨S100000x64, .f32⟩
  | 113 => ⟨S_, .f32⟩
  | 114 => ⟨S512, .f32⟩
  | 115 => ⟨S512, .f32⟩
  | 116 => ⟨S512, .f32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S1600000x64, .f32⟩
  | 11 => ⟨S1x64, .f32⟩
  | 12 => ⟨S1600000x64, .f32⟩
  | 13 => ⟨S1600000x64, .f32⟩
  | 14 => ⟨S1600000x64, .f32⟩
  | 15 => ⟨S1600000x64, .f32⟩
  | 16 => ⟨S_, .f32⟩
  | 17 => ⟨S1600000x64, .f32⟩
  | 18 => ⟨S1600000x64, .f32⟩
  | 19 => ⟨S_, .f32⟩
  | 20 => ⟨S1600000x64, .f32⟩
  | 21 => ⟨S1600000x64, .f32⟩
  | 22 => ⟨S1600000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x64, .f32⟩
  | 33 => ⟨S_, .f32⟩
  | 34 => ⟨S1600000x64, .f32⟩
  | 35 => ⟨S1600000x64, .f32⟩
  | 36 => ⟨S1600000x64, .f32⟩
  | 37 => ⟨S1x64, .f32⟩
  | 38 => ⟨S1600000x64, .f32⟩
  | 39 => ⟨S1600000x64, .f32⟩
  | 40 => ⟨S1600000x64, .f32⟩
  | 41 => ⟨S1600000x64, .f32⟩
  | 42 => ⟨S_, .f32⟩
  | 43 => ⟨S1600000x64, .f32⟩
  | 44 => ⟨S1600000x64, .f32⟩
  | 45 => ⟨S_, .f32⟩
  | 46 => ⟨S1600000x64, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S_, .f32⟩
  | 54 => ⟨S1, .f32⟩
  | 55 => ⟨S1, .f32⟩
  | 56 => ⟨S1x1, .f32⟩
  | 57 => ⟨S100000x64, .f32⟩
  | 58 => ⟨S100000x64, .f32⟩
  | 59 => ⟨S100000x64, .f32⟩
  | 60 => ⟨S_, .f32⟩
  | 61 => ⟨S100000, .f32⟩
  | 62 => ⟨S_, .f32⟩
  | 63 => ⟨S512, .f32⟩
  | 64 => ⟨S100000x1, .i32⟩
  | 65 => ⟨S512, .f32⟩
  | 66 => ⟨S_, .f32⟩
  | 67 => ⟨S512, .f32⟩
  | 68 => ⟨S512, .f32⟩
  | 69 => ⟨S_, .f32⟩
  | 70 => ⟨S512, .f32⟩
  | 71 => ⟨S512, .f32⟩
  | 72 => ⟨S_, .f32⟩
  | 73 => ⟨S100000, .f32⟩
  | 74 => ⟨S_, .f32⟩
  | 75 => ⟨S512, .f32⟩
  | 76 => ⟨S100000x1, .i32⟩
  | 77 => ⟨S512, .f32⟩
  | 78 => ⟨S512, .f32⟩
  | 79 => ⟨S100000x64, .f32⟩
  | 80 => ⟨S_, .f32⟩
  | 81 => ⟨S100000, .f32⟩
  | 82 => ⟨S_, .f32⟩
  | 83 => ⟨S512, .f32⟩
  | 84 => ⟨S100000x1, .i32⟩
  | 85 => ⟨S512, .f32⟩
  | 86 => ⟨S512, .f32⟩
  | 87 => ⟨S512, .f32⟩
  | 88 => ⟨S512, .f32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000, .f32⟩
  | 98 => ⟨S100000x1, .f32⟩
  | 99 => ⟨S100000x64, .f32⟩
  | 100 => ⟨S100000x64, .f32⟩
  | 101 => ⟨S_, .f32⟩
  | 102 => ⟨S512, .f32⟩
  | 103 => ⟨S512, .f32⟩
  | 104 => ⟨S512, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000, .f32⟩
  | 114 => ⟨S100000x1, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v8 : Ref sig .tc := ⟨.hbm, 34, rfl⟩
abbrev main_c : Ref sig .tc := ⟨.hbm, 35, rfl⟩
abbrev main_v9 : Ref sig .tc := ⟨.hbm, 36, rfl⟩
abbrev main_v10 : Ref sig .tc := ⟨.hbm, 37, rfl⟩
abbrev main_c_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v23 : Ref sig .tc := ⟨.hbm, 60, rfl⟩
abbrev main_cst_1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_3 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_5 : Ref sig .tc := ⟨.hbm, 78, rfl⟩
abbrev main_v37 : Ref sig .tc := ⟨.hbm, 79, rfl⟩
abbrev main_v38 : Ref sig .tc := ⟨.hbm, 80, rfl⟩
abbrev main_cst_6 : Ref sig .tc := ⟨.hbm, 81, rfl⟩
abbrev main_v39 : Ref sig .tc := ⟨.hbm, 82, rfl⟩
abbrev main_v40 : Ref sig .tc := ⟨.hbm, 83, rfl⟩
abbrev main_cst_7 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_9 : Ref sig .tc := ⟨.hbm, 92, rfl⟩
abbrev main_v47 : Ref sig .tc := ⟨.hbm, 93, rfl⟩
abbrev main_cst_10 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_11 : Ref sig .tc := ⟨.hbm, 101, rfl⟩
abbrev main_v54 : Ref sig .tc := ⟨.hbm, 102, rfl⟩
abbrev main_v55 : Ref sig .tc := ⟨.hbm, 103, rfl⟩
abbrev main_c_12 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_13 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_14 : Ref sig .tc := ⟨.hbm, 117, rfl⟩
abbrev main_v67 : Ref sig .tc := ⟨.hbm, 118, rfl⟩
abbrev main_v68 : Ref sig .tc := ⟨.hbm, 119, rfl⟩
abbrev main_c_15 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_16 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_call2_v0 : Ref sig .tc := ⟨.hbm, 142, rfl⟩
abbrev main_call2_v1 : Ref sig .tc := ⟨.hbm, 143, rfl⟩
abbrev main_call2_cst : Ref sig .tc := ⟨.hbm, 144, rfl⟩
abbrev main_call2_v2 : Ref sig .tc := ⟨.hbm, 145, rfl⟩
abbrev main_call2_v3 : Ref sig .tc := ⟨.hbm, 146, rfl⟩
abbrev main_call2_cst_0 : Ref sig .tc := ⟨.hbm, 147, rfl⟩
abbrev main_call2_v4 : Ref sig .tc := ⟨.hbm, 148, rfl⟩
abbrev main_call2_v5 : Ref sig .tc := ⟨.hbm, 149, rfl⟩
abbrev main_v89 : Ref sig .tc := ⟨.hbm, 150, rfl⟩
abbrev main_c_17 : Ref sig .tc := ⟨.hbm, 151, rfl⟩
abbrev main_v90 : Ref sig .tc := ⟨.hbm, 152, rfl⟩
abbrev main_v91 : Ref sig .tc := ⟨.hbm, 153, rfl⟩
abbrev main_c_18 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_19 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_call3_v0 : Ref sig .tc := ⟨.hbm, 168, rfl⟩
abbrev main_call3_v1 : Ref sig .tc := ⟨.hbm, 169, rfl⟩
abbrev main_call3_cst : Ref sig .tc := ⟨.hbm, 170, rfl⟩
abbrev main_call3_v2 : Ref sig .tc := ⟨.hbm, 171, rfl⟩
abbrev main_call3_v3 : Ref sig .tc := ⟨.hbm, 172, rfl⟩
abbrev main_call3_cst_0 : Ref sig .tc := ⟨.hbm, 173, rfl⟩
abbrev main_call3_v4 : Ref sig .tc := ⟨.hbm, 174, rfl⟩
abbrev main_call3_v5 : Ref sig .tc := ⟨.hbm, 175, rfl⟩
abbrev main_v104 : Ref sig .tc := ⟨.hbm, 176, rfl⟩
abbrev main_cst_20 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_cst_21 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_22 : Ref sig .tc := ⟨.hbm, 188, rfl⟩
abbrev main_v114 : Ref sig .tc := ⟨.hbm, 189, rfl⟩
abbrev main_cst_23 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_24 : Ref sig .tc := ⟨.hbm, 194, rfl⟩
abbrev main_v118 : Ref sig .tc := ⟨.hbm, 195, rfl⟩
abbrev main_v119 : Ref sig .tc := ⟨.hbm, 196, rfl⟩
abbrev main_cst_25 : Ref sig .tc := ⟨.hbm, 197, rfl⟩
abbrev main_v120 : Ref sig .tc := ⟨.hbm, 198, rfl⟩
abbrev main_v121 : Ref sig .tc := ⟨.hbm, 199, rfl⟩
abbrev main_cst_26 : Ref sig .tc := ⟨.hbm, 200, rfl⟩
abbrev main_v122 : Ref sig .tc := ⟨.hbm, 201, rfl⟩
abbrev main_cst_27 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_28 : Ref sig .tc := ⟨.hbm, 208, rfl⟩
abbrev main_v128 : Ref sig .tc := ⟨.hbm, 209, rfl⟩
abbrev main_cst_29 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_c_30 : Ref sig .tc := ⟨.hbm, 217, rfl⟩
abbrev main_v135 : Ref sig .tc := ⟨.hbm, 218, rfl⟩
abbrev main_v136 : Ref sig .tc := ⟨.hbm, 219, rfl⟩
abbrev main_c_31 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_32 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_c_33 : Ref sig .tc := ⟨.hbm, 233, rfl⟩
abbrev main_v148 : Ref sig .tc := ⟨.hbm, 234, rfl⟩
abbrev main_v149 : Ref sig .tc := ⟨.hbm, 235, rfl⟩
abbrev main_c_34 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_cst_35 : Ref sig .tc := ⟨.hbm, 252, rfl⟩
abbrev main_v165 : Ref sig .tc := ⟨.hbm, 253, rfl⟩
abbrev main_v166 : Ref sig .tc := ⟨.hbm, 254, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1 : S_.BroadcastsInDim S1 (![] : Fin 0 → Fin S1.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512_S100000x1_S100000_n_0_0_1_wf : ScatterDims.WF S512 S100000x1 S100000 [] [0] [0] 1
  gather_S512_S100000x1_S100000_n_0_n_n_0_1_1_wf : GatherDims.WF S512 S100000x1 S100000 [] [0] [] [0] [] 1 ![1]

variable [Facts₀]

def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def gather_S512_S100000x1_S100000_n_0_n_n_0_1_1 : GatherDims S512 S100000x1 S100000 where
  offsetDims := []
  collapsedSliceDims := [0]
  operandBatchingDims := []
  startIndicesBatchingDims := []
  startIndexMap := [0]
  indexVectorDim := 1
  sliceSizes := ![1]
  wf := gather_S512_S100000x1_S100000_n_0_n_n_0_1_1_wf

class Facts : Prop extends Facts₀ where

variable [Facts]
-- ==== Proof.Stages.lean ====
/-
  The graph-normalisation stages of both programs, each as ONE function of the arrays it reads.

  Nodes `i < 100000` carry 64 channels and a graph id `g i`; `P` is the node array before normalisation (the
  aggregated edge messages plus `(1 + eps) * x`).  Per graph `k < 512`:
    `cnt g k  = max (64 * #{i | g i = k}) 1`,
    `mean P g k = (sum of P over the nodes of graph k and all channels) / cnt g k`,
    `var P g k  = (the same sum of squares) / cnt g k - (mean P g k)^2`.
  `refOut` is the reference's last stage: `max (((P - mean[g]) / sqrt (var + eps)[g]) * gamma + beta + x) 0`,
  the per-node statistics fetched by a gather at the wrapped graph id.  `outPre` is how `P` is made from the
  edge messages.  Everything is stated over the reference program's printed dimension records, at any float instance.
-/
import proofs.«400646_j24386824306904_1_alg».proof.Proof.Gen.ReferenceIdeal
import Idealize.ShloMosaic.PureOps.Ideal

noncomputable section

namespace Cert.Stages

open Idealize.ShloMosaic Cert.ReferenceIdeal Cert.ReferenceIdeal.Gen

variable {F : FTy → Type} [FloatOps F]

/-- The all-zero table over the 512 graphs (what every segment sum starts from). -/
def zeroG : FVec F S512 .f32 := broadcastInDim S512 ![] bcast_S_S512 (constant S_ .f32 0x00000000#32)

/-- The graph ids as a column of scatter / gather start indices. -/
def gCol (g : IVec S100000 32) : IVec S100000x1 32 := broadcastInDim S100000x1 ![0] bcast_S100000_S100000x1_0 g

/-- The segment sum over graphs of one value per node. -/
def segSum (g : IVec S100000 32) (r : FVec F S100000 .f32) : FVec F S512 .f32 :=
  Host.scatterAdd scatter_S512_S100000x1_S100000_n_0_0_1 zeroG (gCol g) r

/-- The sum over a node's 64 channels. -/
def rowSum (P : FVec F S100000x64 .f32) : FVec F S100000 .f32 :=
  Host.reduceAdd P (constant S_ .f32 0x00000000#32) reducesTo_S100000x64_S100000_d1 h_S_

/-- The number of entries (nodes times 64 channels) of each graph, at least 1. -/
def cnt (g : IVec S100000 32) : FVec F S512 .f32 :=
  maximumf (mulf (segSum g (broadcastInDim S100000 ![] bcast_S_S100000 (constant S_ .f32 0x3F800000#32)))
      (broadcastInDim S512 ![] bcast_S_S512 (constant S_ .f32 0x42800000#32)))
    (broadcastInDim S512 ![] bcast_S_S512 (constant S_ .f32 0x3F800000#32))

/-- The mean of `P` over each graph's entries. -/
def mean (P : FVec F S100000x64 .f32) (g : IVec S100000 32) : FVec F S512 .f32 :=
  Host.divf (segSum g (rowSum P)) (cnt g)

/-- The variance of `P` over each graph's entries: mean of squares minus squared mean. -/
def var (P : FVec F S100000x64 .f32) (g : IVec S100000 32) : FVec F S512 .f32 :=
  subf (Host.divf (segSum g (rowSum (mulf P P))) (cnt g)) (mulf (mean P g) (mean P g))

/-- The graph ids as gather start indices, a negative id wrapped by 512 (numpy's indexing from the end). -/
def gWrap (g : IVec S100000 32) : IVec S100000x1 32 :=
  broadcastInDim S100000x1 ![0] bcast_S100000_S100000x1_0
    (select (cmpi .slt g (broadcastInDim S100000 ![] bcast_S_S100000 (constantI S_ 32 0#32)))
      (addi g (broadcastInDim S100000 ![] bcast_S_S100000 (constantI S_ 32 512#32))) g)

/-- One value per node, repeated over the 64 channels. -/
def rows (v : FVec F S100000 .f32) : FVec F S100000x64 .f32 :=
  broadcastInDim S100000x64 ![0, 1] bcast_S100000x1_S100000x64_0_1 (broadcastInDim S100000x1 ![0] bcast_S100000_S100000x1_0 v)

/-- One value per channel, repeated over the nodes. -/
def cols (v : FVec F S64 .f32) : FVec F S100000x64 .f32 :=
  broadcastInDim S100000x64 ![0, 1] bcast_S1x64_S100000x64_0_1 (broadcastInDim S1x64 ![1] bcast_S64_S1x64_1 v)

/-- The epsilon under the square root, one per graph. -/
def epsG : FVec F S512 .f32 := broadcastInDim S512 ![] bcast_S_S512 (constant S_ .f32 0x3727C5AC#32)

/-- The reference's last stage: normalise `P` per graph, scale, shift, add the residual `x`, clamp at zero. -/
def refOut (P : FVec F S100000x64 .f32) (g : IVec S100000 32) (γ β : FVec F S64 .f32) (x : FVec F S100000x64 .f32) :
    FVec F S100000x64 .f32 :=
  maximumf
    (addf
      (addf
        (mulf
          (Host.divf (subf P (rows (Host.gather gather_S512_S100000x1_S100000_n_0_n_n_0_1_1 (mean P g) (gWrap g))))
            (rows (Host.gather gather_S512_S100000x1_S100000_n_0_n_n_0_1_1 (Host.sqrt (addf (var P g) epsG)) (gWrap g))))
          (cols γ))
        (cols β))
      x)
    (broadcastInDim S100000x64 ![] bcast_S_S100000x64 (constant S_ .f32 0x00000000#32))

/-- Row 1 of the edge index (the destination node of each edge) as a column of scatter start indices. -/
def dstCol (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- The node array before normalisation: the edge messages summed into their destination nodes, plus `(1 + eps) * x`. -/
def outPre (msg : FVec F S1600000x64 .f32) (ei : IVec S2x1600000 32) (x : FVec F S100000x64 .f32) (eps : FVec F S1 .f32) :
    FVec F S100000x64 .f32 :=
  addf
    (Host.scatterAdd scatter_S100000x64_S1600000x1_S1600000x64_1_0_0_1
      (broadcastInDim S100000x64 ![] bcast_S_S100000x64 (constant S_ .f32 0x00000000#32)) (dstCol ei) msg)
    (mulf
      (broadcastInDim S100000x64 ![0, 1] bcast_S1x1_S100000x64_0_1
        (broadcastInDim S1x1 ![1] bcast_S1_S1x1_1 (addf (broadcastInDim S1 ![] bcast_S_S1 (constant S_ .f32 0x3F800000#32)) eps)))
      x)

end Cert.Stages

end
-- ==== Proof.HostStages.lean ====
/-
  The kernel program's host operations between its two regions, read as values.

  Between the edge-message kernel and the normalisation kernel the program aggregates the messages into the nodes,
  adds `(1 + eps) * x`, and computes each graph's count, mean and variance by segment sums — the very operations
  the reference applies.  So the arrays the second region is entered with are the stages of `Stages.lean` of the
  first region's message array and the launch arguments: the node array `outPre`, the mean and the variance as
  `[1, 512]` rows, the graph ids as a column, the scale and the shift as `[1, 64]` rows.  No host operation writes an
  argument, so an argument's buffer still holds its launch contents.
-/
import proofs.«400646_j24386824306904_1_alg».proof.Proof.PatchedKernelIdealFrame
import proofs.«400646_j24386824306904_1_alg».proof.Proof.Stages
import Idealize.ShloMosaic.Lib.StableHlo.Run
import Idealize.ShloMosaic.Lib.Pipeline.Value
import Idealize.ShloMosaic.Lib.ValueIdx

set_option maxRecDepth 16384

noncomputable section

namespace Cert.KernelIdeal.HostStages

open Idealize.ShloMosaic Idealize.ShloMosaic.TcCoe Idealize.ShloMosaic.ValueIdx Idealize.SL.Sem Idealize.ShloMosaic.Tactic
open Cert.KernelIdeal Cert.KernelIdeal.Gen

variable {F : FTy → Type} [FloatOps F]
variable (m : (ℓ : Loc nD τ sig) → Buf (Elt F) ℓ) (ρ : Dev nD → PrngReg)

/-! ## An argument's buffer at the first region's exit holds its launch contents -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W2_main_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W2_main_arg17 (c : Dev nD) : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-! ## The arrays the second region is entered with -/

/-- The node array before normalisation, every leaf read at the first region's exit. -/
theorem V3_v22' (c : Dev nD) :
    (V3 m ρ c main_v22 : FVec F Cert.ReferenceIdeal.S100000x64 .f32)
      = Cert.Stages.outPre (W2 m ρ c (Proc.devRef .tc main_v13)) (W2 m ρ c (Proc.devRef .tc main_arg1))
          (W2 m ρ c (Proc.devRef .tc main_arg0)) (W2 m ρ c (Proc.devRef .tc main_arg15)) := by
  show StableHlo.after hostOps1 (W2 m ρ c) (Proc.devRef .tc main_v22) = _
  after_results
  rfl

/-- The node array before normalisation is `outPre` of the first region's message array. -/
theorem V3_v22 (c : Dev nD) :
    (V3 m ρ c main_v22 : FVec F Cert.ReferenceIdeal.S100000x64 .f32)
      = Cert.Stages.outPre (W2 m ρ c (Proc.devRef .tc main_v13)) (m ((c : Thread nD τ).loc main_arg1))
          (m ((c : Thread nD τ).loc main_arg0)) (m ((c : Thread nD τ).loc main_arg15)) := by
  rw [V3_v22' m ρ c, W2_main_arg1 m ρ c, W2_main_arg0 m ρ c, W2_main_arg15 m ρ c]

set_option maxHeartbeats 2000000 in
/-- The mean row: the per-graph mean of the node array, as a `[1, 512]` row. -/
theorem V3_v47 (c : Dev nD) :
    (V3 m ρ c main_v47 : FVec F S1x512 .f32)
      = shapeCast S1x512 (Cert.Stages.mean (V3 m ρ c main_v22 : FVec F Cert.ReferenceIdeal.S100000x64 .f32)
          (m ((c : Thread nD τ).loc main_arg3))) shapeCasts_S512_S1x512 := by
  rw [V3_v22' m ρ c, ← W2_main_arg3 m ρ c]
  show StableHlo.after hostOps1 (W2 m ρ c) (Proc.devRef .tc main_v47) = _
  after_results_simp
  rfl

set_option maxHeartbeats 2000000 in
/-- The variance row: the per-graph variance of the node array, as a `[1, 512]` row. -/
theorem V3_v48 (c : Dev nD) :
    (V3 m ρ c main_v48 : FVec F S1x512 .f32)
      = shapeCast S1x512 (Cert.Stages.var (V3 m ρ c main_v22 : FVec F Cert.ReferenceIdeal.S100000x64 .f32)
          (m ((c : Thread nD τ).loc main_arg3))) shapeCasts_S512_S1x512 := by
  rw [V3_v22' m ρ c, ← W2_main_arg3 m ρ c]
  show StableHlo.after hostOps1 (W2 m ρ c) (Proc.devRef .tc main_v48) = _
  after_results_simp
  rfl

/-- The graph ids as a column. -/
theorem V3_v44 (c : Dev nD) :
    (V3 m ρ c main_v44 : IVec S100000x1 32)
      = shapeCast S100000x1 (m ((c : Thread nD τ).loc main_arg3)) shapeCasts_S100000_S100000x1 := by
  rw [← W2_main_arg3 m ρ c]
  show StableHlo.after hostOps1 (W2 m ρ c) (Proc.devRef .tc main_v44) = _
  after_results
  rfl

/-- The scale as a row. -/
theorem V3_v45 (c : Dev nD) :
    (V3 m ρ c main_v45 : FVec F S1x64 .f32)
      = shapeCast S1x64 (m ((c : Thread nD τ).loc main_arg16)) shapeCasts_S64_S1x64 := by
  rw [← W2_main_arg16 m ρ c]
  show StableHlo.after hostOps1 (W2 m ρ c) (Proc.devRef .tc main_v45) = _
  after_results
  rfl

/-- The shift as a row. -/
theorem V3_v46 (c : Dev nD) :
    (V3 m ρ c main_v46 : FVec F S1x64 .f32)
      = shapeCast S1x64 (m ((c : Thread nD τ).loc main_arg17)) shapeCasts_S64_S1x64 := by
  rw [← W2_main_arg17 m ρ c]
  show StableHlo.after hostOps1 (W2 m ρ c) (Proc.devRef .tc main_v46) = _
  after_results
  rfl

/-- The residual input is the launch argument. -/
theorem V3_arg0 (c : Dev nD) : V3 m ρ c main_arg0 = m ((c : Thread nD τ).loc main_arg0) := by
  rw [← W2_main_arg0 m ρ c]
  show StableHlo.after hostOps1 (W2 m ρ c) (Proc.devRef .tc main_arg0) = _
  after_results

/-! ## A vector kept as a row or as a column, read at an entry -/

theorem row512_apply {α : Type} (v : S512.Idx → α) (k : Fin 512) :
    shapeCast S1x512 v shapeCasts_S512_S1x512 (ix2 (0 : Fin 1) k) = v (ix1 k) :=
  shapeCast_apply v shapeCasts_S512_S1x512 (ix2 (0 : Fin 1) k) (ix1 k)
    (by rewrite [Shape.rowMajor_val_two, Shape.rowMajor_val_one]; show k.val = 0 * 512 + k.val; omega)

theorem row64_apply {α : Type} (v : S64.Idx → α) (d : Fin 64) :
    shapeCast S1x64 v shapeCasts_S64_S1x64 (ix2 (0 : Fin 1) d) = v (ix1 d) :=
  shapeCast_apply v shapeCasts_S64_S1x64 (ix2 (0 : Fin 1) d) (ix1 d)
    (by rewrite [Shape.rowMajor_val_two, Shape.rowMajor_val_one]; show d.val = 0 * 64 + d.val; omega)

theorem colN_apply {α : Type} (v : S100000.Idx → α) (i : Fin 100000) :
    shapeCast S100000x1 v shapeCasts_S100000_S100000x1 (ix2 i (0 : Fin 1)) = v (ix1 i) :=
  shapeCast_apply v shapeCasts_S100000_S100000x1 (ix2 i (0 : Fin 1)) (ix1 i)
    (by rewrite [Shape.rowMajor_val_two, Shape.rowMajor_val_one]; show i.val = i.val * 1 + 0; omega)

end Cert.KernelIdeal.HostStages

end
-- ==== Proof.EdgeRegion.lean ====
/-
  The first region (the edge-message kernel) read as a value: after it, the message array is the reference's own
  message stage of the launch arguments — the same two matrix products, bias rows, gated units and clamp, entry by
  entry (a matrix product into a zero accumulator is the plain sum of products; a change of float format is the identity).
-/
import proofs.«400646_j24386824306904_1_alg».proof.Proof.PatchedKernelIdealFrame
import proofs.«400646_j24386824306904_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeRegion

open Idealize.ShloMosaic Idealize.ShloMosaic.TcCoe Idealize.ShloMosaic.ValueIdx Idealize.SL.Sem
open Cert.KernelIdeal Cert.KernelIdeal.Gen

/-! ## The arithmetic of one message entry -/

/-- One entry of an edge's message, from the edge's feature row `a`, the gathered source row `x`, and the two
    layers: the hidden row `h = a · We + be`, gated as `h · σ(h)`, added to `x` and clamped at zero, then the
    second layer `m = z · Wm + bm` gated the same way. -/
private def msgEntry (a x : Fin 64 → EReal) (We : Fin 64 → Fin 64 → EReal) (be : Fin 64 → EReal)
    (Wm : Fin 64 → Fin 64 → EReal) (bm : Fin 64 → EReal) (q : Fin 64) : EReal :=
  ((∑ k' : Fin 64,
      max (x k' + ((∑ k : Fin 64, a k * We k k') + be k') * Ideal.logistic ((∑ k : Fin 64, a k * We k k') + be k'))
        (Ideal.ofBits .f32 0x00000000#32) * Wm k' q) + bm q)
    * Ideal.logistic ((∑ k' : Fin 64,
      max (x k' + ((∑ k : Fin 64, a k * We k k') + be k') * Ideal.logistic ((∑ k : Fin 64, a k * We k k') + be k'))
        (Ideal.ofBits .f32 0x00000000#32) * Wm k' q) + bm q)

/-! ## The block's matrix product at an entry -/

private theorem lhs_blk_0 (i : S12800x64.Idx) (q : dot_S12800x64_S64x64_S12800x64_1_0_0_1_n_n.contr.Idx) :
    (dot_S12800x64_S64x64_S12800x64_1_0_0_1_n_n.lhsIdx i q 0).val = (i 0).val := by
  unfold DotDims.lhsIdx
  rw [dif_neg (show ¬(0 : Fin S12800x64.rank) ∈ dot_S12800x64_S64x64_S12800x64_1_0_0_1_n_n.lhsBatch by decide), dif_pos (show (0 : Fin S12800x64.rank) ∈ dot_S12800x64_S64x64_S12800x64_1_0_0_1_n_n.lhsNonContracting by decide)]
  rfl
private theorem lhs_blk_1 (i : S12800x64.Idx) (q : dot_S12800x64_S64x64_S12800x64_1_0_0_1_n_n.contr.Idx) :
    (dot_S12800x64_S64x64_S12800x64_1_0_0_1_n_n.lhsIdx i q 1).val = (q ⟨0, by decide⟩).val :=
  dot_S12800x64_S64x64_S12800x64_1_0_0_1_n_n.lhsIdx_val_of_single rfl i q
private theorem rhs_blk_0 (i : S12800x64.Idx) (q : dot_S12800x64_S64x64_S12800x64_1_0_0_1_n_n.contr.Idx) :
    (dot_S12800x64_S64x64_S12800x64_1_0_0_1_n_n.rhsIdx i q 0).val = (q ⟨0, by decide⟩).val :=
  dot_S12800x64_S64x64_S12800x64_1_0_0_1_n_n.rhsIdx_val_of_single rfl i q
private theorem rhs_blk_1 (i : S12800x64.Idx) (q : dot_S12800x64_S64x64_S12800x64_1_0_0_1_n_n.contr.Idx) :
    (dot_S12800x64_S64x64_S12800x64_1_0_0_1_n_n.rhsIdx i q 1).val = (i 1).val := by
  unfold DotDims.rhsIdx
  rw [dif_neg (show ¬(1 : Fin S64x64.rank) ∈ dot_S12800x64_S64x64_S12800x64_1_0_0_1_n_n.rhsBatch by decide), dif_pos (show (1 : Fin S64x64.rank) ∈ dot_S12800x64_S64x64_S12800x64_1_0_0_1_n_n.rhsNonContracting by decide)]
  rfl

/-- A block's rows times a 64×64 matrix, into a zero accumulator: entry `(p, q)` is the sum over `k` of row `p` at
    `k` times the matrix at `(k, q)`. -/
private theorem matmul_blk_apply {φ₁ φ₂ : FTy} (a : FVec Ideal S12800x64 φ₁) (w : FVec Ideal S64x64 φ₂) (p : Fin 12800) (q : Fin 64) :
    matmul dot_S12800x64_S64x64_S12800x64_1_0_0_1_n_n none a w (constant (F := Ideal) S12800x64 .f32 0x00000000#32) (ix2 p q)
      = ∑ k : Fin 64, a (ix2 p k) * w (ix2 k q) := by
  show FloatOps.matmul dot_S12800x64_S64x64_S12800x64_1_0_0_1_n_n none a w (constant S12800x64 .f32 0x00000000#32) (ix2 p q) = _
  rw [Ideal.matmul_constant_zero_apply, ← Equiv.sum_comp (ValueIdx.contrEquiv1 dot_S12800x64_S64x64_S12800x64_1_0_0_1_n_n 64 rfl rfl).symm]
  refine Finset.sum_congr rfl fun k _ => ?_
  have hk := ValueIdx.contrEquiv1_symm_val dot_S12800x64_S64x64_S12800x64_1_0_0_1_n_n 64 rfl rfl k
  have el : dot_S12800x64_S64x64_S12800x64_1_0_0_1_n_n.lhsIdx (ix2 p q) ((ValueIdx.contrEquiv1 dot_S12800x64_S64x64_S12800x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S12800x64_S64x64_S12800x64_1_0_0_1_n_n.rhsIdx (ix2 p q) ((ValueIdx.contrEquiv1 dot_S12800x64_S64x64_S12800x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-- A block's rows through one layer: the product into a zero accumulator plus the bias row laid along every row. -/
private theorem affine_apply {φ₁ φ₂ : FTy} (z : FVec Ideal S12800x64 φ₁) (W : FVec Ideal S64x64 φ₂) (b : FVec Ideal S1x64 .f32) (p : Fin 12800) (q : Fin 64) :
    addf (matmul dot_S12800x64_S64x64_S12800x64_1_0_0_1_n_n none z W (constant (F := Ideal) S12800x64 .f32 0x00000000#32))
        (broadcastTo S12800x64 b broadcasts_S1x64_S12800x64) (ix2 p q)
      = (∑ k : Fin 64, z (ix2 p k) * W (ix2 k q)) + b (ix2 (0 : Fin 1) q) := by
  rw [addf_apply, matmul_blk_apply, broadcastTo_1b_ab_apply]

/-- The gated unit `v · σ(v)`, entry by entry. -/
private theorem gated_apply (v : FVec Ideal S12800x64 .f32) (i : S12800x64.Idx) :
    mulf v (logistic v) i = v i * Ideal.logistic (v i) := rfl

/-- The gated hidden row added to the source row, entry by entry. -/
private theorem resid_apply (x v : FVec Ideal S12800x64 .f32) (i : S12800x64.Idx) :
    addf x (mulf v (logistic v)) i = x i + v i * Ideal.logistic (v i) := rfl

/-- The body's arithmetic at entry `(p, q)` of a block: the message entry of the block's row `p`. -/
private theorem pay_apply (a xj : Vec Ideal S12800x64 .f32) (We Wm : Vec Ideal S64x64 .f32) (be bm : Vec Ideal S1x64 .f32)
    (p : Fin 12800) (q : Fin 64) :
    (k0_pay1 (F := Ideal) a xj We Wm be bm : S12800x64.Idx → EReal) (ix2 p q)
      = msgEntry (fun k => a (ix2 p k)) (fun k => xj (ix2 p k)) (fun k k' => We (ix2 k k')) (fun k' => be (ix2 (0 : Fin 1) k'))
          (fun k' q => Wm (ix2 k' q)) (fun q => bm (ix2 (0 : Fin 1) q)) q := by
  unfold k0_pay1 msgEntry
  simp only [shapeCast_self]
  rw [gated_apply, affine_apply]
  simp only [truncf_apply, maximumf_apply, resid_apply, affine_apply, broadcast_apply]
  rfl

/-! ## The reference's message stage at an entry -/

open Cert.ReferenceIdeal.Read in
private theorem lidx_out (e : Fin 1600000) (q k : Fin 64) : lidx_main_v100 (ix2 e q) k = ix2 e k :=
  funext fun a => Fin.ext (by match a with | ⟨0, _⟩ => rfl | ⟨1, _⟩ => rfl)
open Cert.ReferenceIdeal.Read in
private theorem ridx_out (e : Fin 1600000) (q k : Fin 64) : ridx_main_v100 (ix2 e q) k = ix2 k q :=
  funext fun a => Fin.ext (by match a with | ⟨0, _⟩ => rfl | ⟨1, _⟩ => rfl)
open Cert.ReferenceIdeal.Read in
private theorem lidx_hid (e : Fin 1600000) (q k : Fin 64) : lidx_main_v85 (ix2 e q) k = ix2 e k :=
  funext fun a => Fin.ext (by match a with | ⟨0, _⟩ => rfl | ⟨1, _⟩ => rfl)
open Cert.ReferenceIdeal.Read in
private theorem ridx_hid (e : Fin 1600000) (q k : Fin 64) : ridx_main_v85 (ix2 e q) k = ix2 k q :=
  funext fun a => Fin.ext (by match a with | ⟨0, _⟩ => rfl | ⟨1, _⟩ => rfl)
open Cert.ReferenceIdeal.Read in
private theorem idx_bias_out (e : Fin 1600000) (q : Fin 64) : idx_main_v101 (idx_main_v102 (ix2 e q)) = ix1 q :=
  funext fun a => Fin.ext (by match a with | ⟨0, _⟩ => rfl)
open Cert.ReferenceIdeal.Read in
private theorem idx_bias_hid (e : Fin 1600000) (q : Fin 64) : idx_main_v86 (idx_main_v87 (ix2 e q)) = ix1 q :=
  funext fun a => Fin.ext (by match a with | ⟨0, _⟩ => rfl)

/-- The float word of one is the number one. -/
private theorem ofBits_one_f32 : Ideal.ofBits .f32 0x3F800000#32 = 1 := by
  simp [Ideal.ofBits, Ideal.ieee, -EReal.coe_mul]; norm_num

open Cert.ReferenceIdeal.Read in
/-- The reference's message stage at entry `(e, q)`: the message entry of edge `e`'s feature row and gathered source row. -/
private theorem ref_apply (x0 : (⟨S100000x64, .f32⟩ : BufTy).Contents (Elt Ideal)) (x1 : (⟨S2x1600000, .i32⟩ : BufTy).Contents (Elt Ideal))
    (x2 : (⟨S1600000x64, .f32⟩ : BufTy).Contents (Elt Ideal)) (x11 : (⟨S64x64, .f32⟩ : BufTy).Contents (Elt Ideal))
    (x12 : (⟨S64, .f32⟩ : BufTy).Contents (Elt Ideal)) (x13 : (⟨S64x64, .f32⟩ : BufTy).Contents (Elt Ideal))
    (x14 : (⟨S64, .f32⟩ : BufTy).Contents (Elt Ideal)) (e : Fin 1600000) (q : Fin 64) :
    val_main_v104 (F := Ideal) x0 x1 x2 x11 x12 x13 x14 (ix2 e q)
      = msgEntry (fun k => x2 (ix2 e k)) (fun k => val_main_v96 (F := Ideal) x0 x1 (ix2 e k)) (fun k k' => x11 (ix2 k k'))
          (fun k' => x12 (ix1 k')) (fun k' q => x13 (ix2 k' q)) (fun q => x14 (ix1 q)) q := by
  rw [val_main_v104_apply, val_main_call3_v5_apply, val_main_call3_v4_apply, val_main_call3_cst_0_apply, val_main_call3_v3_apply,
    val_main_call3_v2_apply, val_main_call3_cst_apply, val_main_call3_v1_apply, val_main_call3_v0_apply, val_main_v103_apply,
    val_main_v100_apply, val_main_v102_apply, val_main_v101_apply]
  simp only [lidx_out, ridx_out, idx_bias_out, val_main_v99_apply, val_main_v98_apply, val_main_cst_19_apply, val_main_v97_apply,
    val_main_v89_apply, val_main_call2_v5_apply, val_main_call2_v4_apply, val_main_call2_cst_0_apply, val_main_call2_v3_apply,
    val_main_call2_v2_apply, val_main_call2_cst_apply, val_main_call2_v1_apply, val_main_call2_v0_apply, val_main_v88_apply,
    val_main_v85_apply, val_main_v87_apply, val_main_v86_apply, lidx_hid, ridx_hid, idx_bias_hid]
  unfold msgEntry
  simp only [Ideal.ofBits_def, Ideal.addf_def, Ideal.mulf_def, Ideal.maximumf_def, Ideal.hostDivf_def, Ideal.hostUnary_exp_def,
    Ideal.hostNegf_def, Ideal.negf_def, ofBits_one_f32, Ideal.logistic]

variable (m : (ℓ : Loc nD τ sig) → Buf (Elt Ideal) ℓ) (ρ : Dev nD → PrngReg)

/-! ## The arrays the region finds -/

/-- The edge features, as launched. -/
private theorem entry_feat (c : Dev nD) : V1 m ρ c main_arg2 = m ((c.tc : Thread nD τ).loc main_arg2) := by
  show StableHlo.after hostOps0 _ (Proc.devRef .tc main_arg2) = _
  after_results

/-- The first layer's matrix, as launched. -/
private theorem entry_We (c : Dev nD) : V1 m ρ c main_arg11 = m ((c.tc : Thread nD τ).loc main_arg11) := by
  show StableHlo.after hostOps0 _ (Proc.devRef .tc main_arg11) = _
  after_results

/-- The second layer's matrix, as launched. -/
private theorem entry_Wm (c : Dev nD) : V1 m ρ c main_arg13 = m ((c.tc : Thread nD τ).loc main_arg13) := by
  show StableHlo.after hostOps0 _ (Proc.devRef .tc main_arg13) = _
  after_results

/-- The first layer's bias as one row. -/
private theorem entry_be (c : Dev nD) : (V1 m ρ c main_v11 : S1x64.Idx → EReal)
    = shapeCast S1x64 (m ((c.tc : Thread nD τ).loc main_arg12) : S64.Idx → EReal) shapeCasts_S64_S1x64 := by
  show StableHlo.after hostOps0 _ (Proc.devRef .tc main_v11) = _
  after_results
  rfl

/-- The second layer's bias as one row. -/
private theorem entry_bm (c : Dev nD) : (V1 m ρ c main_v12 : S1x64.Idx → EReal)
    = shapeCast S1x64 (m ((c.tc : Thread nD τ).loc main_arg14) : S64.Idx → EReal) shapeCasts_S64_S1x64 := by
  show StableHlo.after hostOps0 _ (Proc.devRef .tc main_v12) = _
  after_results
  rfl

/-- The source rows the host gathered are the reference's gathered rows: the same wrapped source index, the same gather. -/
private theorem entry_src (c : Dev nD) : (V1 m ρ c main_v10 : S1600000x64.Idx → EReal)
    = Cert.ReferenceIdeal.Read.val_main_v96 (F := Ideal) (m ((c.tc : Thread nD τ).loc main_arg0)) (m ((c.tc : Thread nD τ).loc main_arg1)) := by
  show StableHlo.after hostOps0 _ (Proc.devRef .tc main_v10) = _
  after_results
  rfl

/-! ## From the blocks to the message array -/

private theorem hz : (![0, 0] : Fin 2 → Nat) = fun _ => 0 := funext fun a => by fin_cases a <;> rfl

/-- The body's arithmetic at any entry `j` of a block. -/
private theorem pay_at (a xj : Vec Ideal S12800x64 .f32) (We Wm : Vec Ideal S64x64 .f32) (be bm : Vec Ideal S1x64 .f32) (j : S12800x64.Idx) :
    (k0_pay1 (F := Ideal) a xj We Wm be bm : S12800x64.Idx → EReal) j
      = msgEntry (fun k => a (ix2 (j 0) k)) (fun k => xj (ix2 (j 0) k)) (fun k k' => We (ix2 k k')) (fun k' => be (ix2 (0 : Fin 1) k'))
          (fun k' q => Wm (ix2 k' q)) (fun q => bm (ix2 (0 : Fin 1) q)) (j 1) := by
  obtain ⟨p, q, rfl⟩ : ∃ (p : Fin 12800) (q : Fin 64), j = ix2 p q := ⟨j 0, j 1, eq_ix2 j⟩
  exact pay_apply a xj We Wm be bm p q

/-- The grid's index maps, decided over its 125 points: the three windows of edge rows (features, gathered source
    rows, messages) sit at block row `t`; the four layer windows are their whole arrays. -/
private theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the feature block at point `t` is row `12800 t + p` of the edge features. -/
private theorem blk_feat (c : Dev nD) (t : Fin cfg0.N) (p : Fin 12800) (k : Fin 64) (e : Fin 1600000) (he : e.val = 12800 * t.val + p.val) :
    (iblk0 (V1 m ρ) c 0 t : S12800x64.Idx → EReal) (ix2 p k)
      = (m ((c.tc : Thread nD τ).loc main_arg2) : S1600000x64.Idx → EReal) (ix2 e k) := by
  obtain ⟨e0, e1, -⟩ := idx_facts t
  show V1 m ρ c main_arg2 (((cfg0.win 0).blk t).view.emb (ix2 p k)) = _
  rw [entry_feat]
  refine congrArg _ (funext fun a => Fin.ext ?_)
  match a with
  | ⟨0, _⟩ => show win0_0.index t (0 : Fin 2) * 12800 + 1 * p.val = e.val; omega
  | ⟨1, _⟩ => show win0_0.index t (1 : Fin 2) * 64 + 1 * k.val = k.val; omega

/-- Row `p` of the source-row block at point `t` is row `12800 t + p` of the reference's gathered source rows. -/
private theorem blk_src (c : Dev nD) (t : Fin cfg0.N) (p : Fin 12800) (k : Fin 64) (e : Fin 1600000) (he : e.val = 12800 * t.val + p.val) :
    (iblk0 (V1 m ρ) c 1 t : S12800x64.Idx → EReal) (ix2 p k)
      = Cert.ReferenceIdeal.Read.val_main_v96 (F := Ideal) (m ((c.tc : Thread nD τ).loc main_arg0)) (m ((c.tc : Thread nD τ).loc main_arg1)) (ix2 e k) := by
  obtain ⟨-, -, e0, e1, -⟩ := idx_facts t
  show V1 m ρ c main_v10 (((cfg0.win 1).blk t).view.emb (ix2 p k)) = _
  rw [entry_src]
  refine congrArg _ (funext fun a => Fin.ext ?_)
  match a with
  | ⟨0, _⟩ => show win0_1.index t (0 : Fin 2) * 12800 + 1 * p.val = e.val; omega
  | ⟨1, _⟩ => show win0_1.index t (1 : Fin 2) * 64 + 1 * k.val = k.val; omega

/-- The first layer's matrix window is the whole matrix at every point. -/
private theorem blk_We (c : Dev nD) (t : Fin cfg0.N) (k k' : Fin 64) :
    (iblk0 (V1 m ρ) c 2 t : S64x64.Idx → EReal) (ix2 k k')
      = (m ((c.tc : Thread nD τ).loc main_arg11) : S64x64.Idx → EReal) (ix2 k k') := by
  obtain ⟨-, -, -, -, e0, e1, -⟩ := idx_facts t
  show V1 m ρ c main_arg11 (((cfg0.win 2).blk t).view.emb (ix2 k k')) = _
  rw [entry_We]
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * k'.val = k'.val; omega

/-- The first layer's bias window is the bias, laid as one row. -/
private theorem blk_be (c : Dev nD) (t : Fin cfg0.N) (k' : Fin 64) :
    (iblk0 (V1 m ρ) c 3 t : S1x64.Idx → EReal) (ix2 (0 : Fin 1) k')
      = (m ((c.tc : Thread nD τ).loc main_arg12) : S64.Idx → EReal) (ix1 k') := by
  obtain ⟨-, -, -, -, -, -, e0, e1, -⟩ := idx_facts t
  show V1 m ρ c main_v11 (((cfg0.win 3).blk t).view.emb (ix2 (0 : Fin 1) k')) = _
  rw [entry_be]
  refine Eq.trans (congrArg _ (funext fun a => Fin.ext ?_)) (shapeCast_a_1a_apply _ shapeCasts_S64_S1x64 (0 : Fin 1) k')
  match a with
  | ⟨0, _⟩ => show win0_3.index t (0 : Fin 2) * 1 + 1 * 0 = 0; omega
  | ⟨1, _⟩ => show win0_3.index t (1 : Fin 2) * 64 + 1 * k'.val = k'.val; omega

/-- The second layer's matrix window is the whole matrix at every point. -/
private theorem blk_Wm (c : Dev nD) (t : Fin cfg0.N) (k k' : Fin 64) :
    (iblk0 (V1 m ρ) c 4 t : S64x64.Idx → EReal) (ix2 k k')
      = (m ((c.tc : Thread nD τ).loc main_arg13) : S64x64.Idx → EReal) (ix2 k k') := by
  obtain ⟨-, -, -, -, -, -, -, -, e0, e1, -⟩ := idx_facts t
  show V1 m ρ c main_arg13 (((cfg0.win 4).blk t).view.emb (ix2 k k')) = _
  rw [entry_Wm]
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * k'.val = k'.val; omega

/-- The second layer's bias window is the bias, laid as one row. -/
private theorem blk_bm (c : Dev nD) (t : Fin cfg0.N) (k' : Fin 64) :
    (iblk0 (V1 m ρ) c 5 t : S1x64.Idx → EReal) (ix2 (0 : Fin 1) k')
      = (m ((c.tc : Thread nD τ).loc main_arg14) : S64.Idx → EReal) (ix1 k') := by
  obtain ⟨-, -, -, -, -, -, -, -, -, -, e0, e1, -⟩ := idx_facts t
  show V1 m ρ c main_v12 (((cfg0.win 5).blk t).view.emb (ix2 (0 : Fin 1) k')) = _
  rw [entry_bm]
  refine Eq.trans (congrArg _ (funext fun a => Fin.ext ?_)) (shapeCast_a_1a_apply _ shapeCasts_S64_S1x64 (0 : Fin 1) k')
  match a with
  | ⟨0, _⟩ => show win0_5.index t (0 : Fin 2) * 1 + 1 * 0 = 0; omega
  | ⟨1, _⟩ => show win0_5.index t (1 : Fin 2) * 64 + 1 * k'.val = k'.val; omega

/-- The reference's message stage of the launch arguments: what the message array is to hold. -/
private abbrev msgRef (c : Dev nD) : S1600000x64.Idx → EReal :=
  Cert.ReferenceIdeal.Read.val_main_v104 (F := Ideal)
    (m ((c.tc : Thread nD τ).loc main_arg0)) (m ((c.tc : Thread nD τ).loc main_arg1))
    (m ((c.tc : Thread nD τ).loc main_arg2)) (m ((c.tc : Thread nD τ).loc main_arg11))
    (m ((c.tc : Thread nD τ).loc main_arg12)) (m ((c.tc : Thread nD τ).loc main_arg13))
    (m ((c.tc : Thread nD τ).loc main_arg14))

/-- What point `t` writes back is block `t` of the reference's message stage: rows `12800 t … 12800 t + 12799`. -/
private theorem flushed_eq (c : Dev nD) (t : Fin cfg0.N) :
    (dat0 (V1 m ρ) c).flushed 6 t = ((cfg0.win 6).blk t).view.read (Elt Ideal) (msgRef m c) := by
  show (cfg0.win 6).cut (grid0.coords t) ((dat0 (V1 m ρ) c).after 6 t) = _
  rw [after0_6]
  unfold out0_6
  rw [View.canon_unit_zero hz]
  simp only [View.ld_unit_zero (S := S12800x64) hz, View.ld_unit_zero (S := S64x64) hz, View.ld_unit_zero (S := S1x64) hz]
  funext j
  have hN : cfg0.N = 125 := N_0
  have ht : t.val < 125 := hN ▸ t.isLt
  have hj0 : (j 0).val < 12800 := (j 0).isLt
  have hj1 : (j 1).val < 64 := (j 1).isLt
  have hrow : 12800 * t.val + (j 0).val < 1600000 := by omega
  obtain ⟨-, -, -, -, -, -, -, -, -, -, -, -, e0, e1⟩ := idx_facts t
  have hemb : ((cfg0.win 6).blk t).view.emb j = ix2 (⟨12800 * t.val + (j 0).val, hrow⟩ : Fin 1600000) (⟨(j 1).val, hj1⟩ : Fin 64) := by
    funext a; apply Fin.ext
    match a with
    | ⟨0, _⟩ => show win0_6.index t (0 : Fin 2) * 12800 + 1 * (j 0).val = 12800 * t.val + (j 0).val; omega
    | ⟨1, _⟩ => show win0_6.index t (1 : Fin 2) * 64 + 1 * (j 1).val = (j 1).val; omega
  refine (pay_at (iblk0 (V1 m ρ) c 0 t) (iblk0 (V1 m ρ) c 1 t) (iblk0 (V1 m ρ) c 2 t) (iblk0 (V1 m ρ) c 4 t) (iblk0 (V1 m ρ) c 3 t) (iblk0 (V1 m ρ) c 5 t) j).trans ?_
  show _ = msgRef m c (((cfg0.win 6).blk t).view.emb j)
  rw [hemb]
  unfold msgRef
  rw [ref_apply]
  have h0 := funext fun k => blk_feat m ρ c t (j 0) k ⟨12800 * t.val + (j 0).val, hrow⟩ rfl
  have h1 := funext fun k => blk_src m ρ c t (j 0) k ⟨12800 * t.val + (j 0).val, hrow⟩ rfl
  have h2 := funext fun k => funext fun k' => blk_We m ρ c t k k'
  have h3 := funext fun k' => blk_be m ρ c t k'
  have h4 := funext fun k => funext fun k' => blk_Wm m ρ c t k k'
  have h5 := funext fun k' => blk_bm m ρ c t k'
  exact congr (congr (congr (congr (congr (congr (congrArg msgEntry h0) h1) h2) h3) h4) h5) rfl

/-- An index of the message array is in point `t`'s block iff each coordinate is in the block's range on its axis. -/
private theorem mem_blk (t : Fin cfg0.N) (i : S1600000x64.Idx) :
    i ∈ ((cfg0.win 6).blk t).view.set ↔ ∀ a : Fin 2, win0_6.index t a * S12800x64.size a ≤ (i a).val ∧ (i a).val < win0_6.index t a * S12800x64.size a + S12800x64.size a := by
  show i ∈ ((View.whole main_v13).slice (win0_6.rect t)).set ↔ _
  rw [View.set_slice_whole, Rect.mem_set_unit]
  exact Iff.rfl

/-- Every row of the message array is written back: row `r` by point `r / 12800`. -/
private theorem cover (i : S1600000x64.Idx) :
    ∃ t : Fin cfg0.N, (cfg0.win 6).flush t = true ∧ i ∈ ((cfg0.win 6).blk t).view.set := by
  have hN : cfg0.N = 125 := N_0
  have hi0 : (i 0).val < 1600000 := (i 0).isLt
  have hi1 : (i 1).val < 64 := (i 1).isLt
  have hlt : (i 0).val / 12800 < cfg0.N := Nat.lt_of_lt_of_eq (by omega : (i 0).val / 12800 < 125) hN.symm
  obtain ⟨-, -, -, -, -, -, -, -, -, -, -, -, e0, e1⟩ := idx_facts ⟨(i 0).val / 12800, hlt⟩
  refine ⟨⟨(i 0).val / 12800, hlt⟩, flush0_6 _, ?_⟩
  rw [mem_blk]
  intro a
  match a with
  | ⟨0, _⟩ =>
    show win0_6.index ⟨(i 0).val / 12800, hlt⟩ (0 : Fin 2) * 12800 ≤ (i 0).val ∧ (i 0).val < win0_6.index ⟨(i 0).val / 12800, hlt⟩ (0 : Fin 2) * 12800 + 12800
    rw [e0]
    show (i 0).val / 12800 * 12800 ≤ (i 0).val ∧ (i 0).val < (i 0).val / 12800 * 12800 + 12800
    omega
  | ⟨1, _⟩ =>
    show win0_6.index ⟨(i 0).val / 12800, hlt⟩ (1 : Fin 2) * 64 ≤ (i 1).val ∧ (i 1).val < win0_6.index ⟨(i 0).val / 12800, hlt⟩ (1 : Fin 2) * 64 + 64
    omega

/-- The message array after the region is the reference's message stage. -/
private theorem final (c : Dev nD) : (dat0 (V1 m ρ) c).arrAt 6 cfg0.N = msgRef m c :=
  (dat0 (V1 m ρ) c).arrAt_eq_of_cover 6 (msgRef m c) (fun t _ => flushed_eq m ρ c t) cover

/-- At the first region's exit the message array is the reference's message stage of the launch arguments. -/
theorem msg_eq (c : Dev nD) :
    (W2 m ρ c (Proc.devRef .tc main_v13) : S1600000x64.Idx → EReal)
      = Cert.ReferenceIdeal.Read.val_main_v104 (F := Ideal)
          (m ((c.tc : Thread nD τ).loc main_arg0)) (m ((c.tc : Thread nD τ).loc main_arg1))
          (m ((c.tc : Thread nD τ).loc main_arg2)) (m ((c.tc : Thread nD τ).loc main_arg11))
          (m ((c.tc : Thread nD τ).loc main_arg12)) (m ((c.tc : Thread nD τ).loc main_arg13))
          (m ((c.tc : Thread nD τ).loc main_arg14)) :=
  (W2_arr m ρ c 6).trans (final m ρ c)

end Cert.KernelIdeal.EdgeRegion

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.LibGraphNorm.lean ====
/-
  General lemmas on the extended reals for a per-graph normalisation.

  * `IsReal x`: the extended real `x` is a real number; closed under the exact float operations of the ideal
    instance (sum, difference, product, maximum, exponential, quotient by a non-zero real, the logistic function,
    finite sums).
  * `oneHot w k`: 1 when the words are equal and 0 otherwise; a sum of `oneHot w k * f k` over `k` selects `f` at
    the one `k` equal to `w` — with no finiteness assumption, because `0 * x = 0` for every extended real.
  * For a positive real `v`, multiplying by the reciprocal square root is dividing by the square root.
  * The variance of finitely many real numbers, computed as mean of squares minus squared mean over a count that is
    the number of entries (or 1 when there are none), is non-negative: Cauchy–Schwarz against the all-ones vector.
-/
import Mathlib.Algebra.BigOperators.Group.Finset.Basic
import Mathlib.Algebra.Order.BigOperators.Group.Finset
import Mathlib.Algebra.Order.Chebyshev
import Mathlib.Data.EReal.Operations
import Mathlib.Analysis.SpecialFunctions.Sqrt
import Idealize.ShloMosaic.PureOps.Ideal
import proofs.«400646_j24386824306904_1_alg».proof.Proof.LibSums

open scoped BigOperators

namespace Cert.LibGraphNorm

open Idealize.ShloMosaic

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  obtain ⟨a, rfl⟩ := hx
  obtain ⟨b, rfl⟩ := hy
  -- the larger of two reals is one of them
  rcases le_total a b with h | h
  · exact ⟨b, max_eq_right (EReal.coe_le_coe_iff.2 h)⟩
  · exact ⟨a, max_eq_left (EReal.coe_le_coe_iff.2 h)⟩
theorem IsReal.sum {ι : Type*} (s : Finset ι) (f : ι → EReal) (h : ∀ i ∈ s, IsReal (f i)) : IsReal (∑ i ∈ s, f i) := by
  classical
  -- by induction on the index set: the empty sum is 0, and one more real term keeps the sum real
  induction s using Finset.induction_on with
  | empty => rw [Finset.sum_empty]; exact isReal_zero
  | insert i s hi ih =>
    rw [Finset.sum_insert hi]
    exact (h i (Finset.mem_insert_self i s)).add (ih fun j hj => h j (Finset.mem_insert_of_mem hj))
theorem IsReal.exp {x : EReal} (hx : IsReal x) : IsReal (Ideal.exp x) := by
  obtain ⟨a, rfl⟩ := hx
  exact ⟨Real.exp a, rfl⟩
/-- The exponential of a real is a positive real. -/
theorem exp_coe_pos (r : ℝ) : ∃ e : ℝ, 0 < e ∧ Ideal.exp (r : EReal) = (e : EReal) :=
  ⟨Real.exp r, Real.exp_pos r, rfl⟩

/-- Off zero the quotient is the product with the inverse, and both pass through the embedding of the reals. -/
private theorem div_coe_coe_aux (a b : ℝ) (hb : b ≠ 0) : Ideal.div (a : EReal) (b : EReal) = ((a / b : ℝ) : EReal) := by
  have hb' : (b : EReal) ≠ 0 := fun h => hb (EReal.coe_eq_zero.1 h)
  unfold Ideal.div
  rw [if_neg hb', ← EReal.coe_inv, ← EReal.coe_mul, div_eq_mul_inv]
theorem IsReal.div {x y : EReal} (hx : IsReal x) (hy : IsReal y) (h0 : y ≠ 0) : IsReal (Ideal.div x y) := by
  obtain ⟨a, rfl⟩ := hx
  obtain ⟨b, rfl⟩ := hy
  have hb : b ≠ 0 := fun h => h0 (by rw [h, EReal.coe_zero])
  exact ⟨a / b, div_coe_coe_aux a b hb⟩
/-- The quotient of two reals, the divisor not zero, is the real quotient. -/
theorem div_coe_coe (a b : ℝ) (hb : b ≠ 0) : Ideal.div (a : EReal) (b : EReal) = ((a / b : ℝ) : EReal) :=
  div_coe_coe_aux a b hb
/-- `1 / (1 + e^(-x))` of a real is a real. -/
theorem IsReal.one_div_one_add_exp_neg {x : EReal} (hx : IsReal x) : IsReal (Ideal.div 1 (1 + Ideal.exp (-x))) := by
  obtain ⟨a, rfl⟩ := hx
  -- the divisor is the real 1 + e^(-a), which is positive
  have h1 : (1 : EReal) + Ideal.exp (-(a : EReal)) = ((1 + Real.exp (-a) : ℝ) : EReal) := by
    rw [← EReal.coe_neg, Ideal.exp_coe, EReal.coe_add, EReal.coe_one]
  have hpos : (0 : ℝ) < 1 + Real.exp (-a) := add_pos one_pos (Real.exp_pos _)
  rw [h1, ← EReal.coe_one]
  exact ⟨_, div_coe_coe_aux 1 _ hpos.ne'⟩
/-- A function all of whose values are real is the coercion of a real-valued function. -/
theorem exists_real_fun {ι : Type*} (f : ι → EReal) (h : ∀ i, IsReal (f i)) : ∃ p : ι → ℝ, f = fun i => (p i : EReal) :=
  ⟨fun i => (h i).choose, funext fun i => (h i).choose_spec⟩

/-- 1 when the two words are equal, 0 otherwise. -/
noncomputable def oneHot (w k : BitVec 32) : EReal := if w = k then 1 else 0

/-- A one-hot weighted sum over the 512 graph numbers selects the entry at the word's own number. -/
theorem sum_oneHot_mul (w : BitVec 32) (f : Fin 512 → EReal) (k0 : Fin 512) (hw : w = BitVec.ofNat 32 k0.val) :
    ∑ k : Fin 512, oneHot w (BitVec.ofNat 32 k.val) * f k = f k0 := by
  rw [Finset.sum_eq_single k0]
  · -- the term at the word's own number: 1 * f k0
    unfold oneHot
    rw [if_pos hw, one_mul]
  · -- every other term: two different numbers below 512 are different words, so the weight is 0, and 0 * x = 0
    intro k _ hk
    have hne : w ≠ BitVec.ofNat 32 k.val := by
      rw [hw]
      intro h
      apply hk
      have h2 := congrArg BitVec.toNat h
      have hk0 := k0.isLt
      have hk1 := k.isLt
      rw [BitVec.toNat_ofNat, BitVec.toNat_ofNat, Nat.mod_eq_of_lt (by omega), Nat.mod_eq_of_lt (by omega)] at h2
      exact Fin.ext h2.symm
    unfold oneHot
    rw [if_neg hne, zero_mul]
  · intro h
    exact absurd (Finset.mem_univ k0) h

/-- For a positive real `v`: `a * v^(-1/2) = a / sqrt v`, for every extended real `a`. -/
theorem mul_rsqrt_eq_div_sqrt (a : EReal) {v : ℝ} (hv : 0 < v) :
    a * Ideal.rsqrt (v : EReal) = Ideal.div a (Ideal.sqrt (v : EReal)) := by
  -- both sides are a * (sqrt v)⁻¹: sqrt v is a non-zero real, so the quotient is the product with the inverse
  have hs : Real.sqrt v ≠ 0 := (Real.sqrt_pos.2 hv).ne'
  have hs' : ((Real.sqrt v : ℝ) : EReal) ≠ 0 := fun h => hs (EReal.coe_eq_zero.1 h)
  rw [Ideal.rsqrt_coe, if_neg (not_lt.2 hv.le), if_neg hv.ne', Ideal.sqrt_coe, if_neg (not_lt.2 hv.le)]
  unfold Ideal.div
  rw [if_neg hs', EReal.coe_inv]

/-- If `S² ≤ N * Q` with `N > 0` then `Q / N - (S / N)² ≥ 0`: the difference is `(N * Q - S²) / N²`. -/
private theorem var_aux (S Q N : ℝ) (hN : 0 < N) (h : S ^ 2 ≤ N * Q) : 0 ≤ Q / N - S / N * (S / N) := by
  have e : Q / N - S / N * (S / N) = (N * Q - S ^ 2) / (N * N) := by
    field_simp
  rw [e]
  exact div_nonneg (sub_nonneg.2 h) (mul_nonneg hN.le hN.le)

/-- Mean of squares minus squared mean, over the entries `(i, c)`, `i ∈ A`, `c < 64`, counted as `max (64 * #A) 1`,
    is non-negative. -/
theorem var_nonneg {ι : Type*} (A : Finset ι) (y : ι → Fin 64 → ℝ) :
    0 ≤ (∑ i ∈ A, ∑ c : Fin 64, y i c * y i c) / max (64 * (A.card : ℝ)) 1
        - ((∑ i ∈ A, ∑ c : Fin 64, y i c) / max (64 * (A.card : ℝ)) 1) * ((∑ i ∈ A, ∑ c : Fin 64, y i c) / max (64 * (A.card : ℝ)) 1) := by
  have hN : (0 : ℝ) < max (64 * (A.card : ℝ)) 1 := lt_of_lt_of_le one_pos (le_max_right _ _)
  have hQ0 : 0 ≤ ∑ i ∈ A, ∑ c : Fin 64, y i c * y i c :=
    Finset.sum_nonneg fun i _ => Finset.sum_nonneg fun c _ => mul_self_nonneg _
  -- Cauchy–Schwarz against the all-ones vector over the 64 * #A pairs (i, c)
  have hCS : (∑ i ∈ A, ∑ c : Fin 64, y i c) ^ 2 ≤ (64 * (A.card : ℝ)) * ∑ i ∈ A, ∑ c : Fin 64, y i c * y i c := by
    have h := sq_sum_le_card_mul_sum_sq (s := A ×ˢ (Finset.univ : Finset (Fin 64))) (f := fun p => y p.1 p.2)
    rw [Finset.sum_product, Finset.sum_product, Finset.card_product, Finset.card_univ, Fintype.card_fin] at h
    have e : ∑ i ∈ A, ∑ c : Fin 64, y i c ^ 2 = ∑ i ∈ A, ∑ c : Fin 64, y i c * y i c :=
      Finset.sum_congr rfl fun i _ => Finset.sum_congr rfl fun c _ => sq (y i c)
    rw [e] at h
    refine le_trans h (le_of_eq ?_)
    push_cast
    ring
  -- the count is at least 64 * #A, and the sum of squares is non-negative
  exact var_aux _ _ _ hN (le_trans hCS (mul_le_mul_of_nonneg_right (le_max_left _ _) hQ0))

end Cert.LibGraphNorm
-- ==== Proof.NormSpec.lean ====
/-
  What the normalisation kernel leaves at node `i`, channel `d`, as a formula over the arrays it reads:
  `max (((P[i,d] - mb) * (vb + eps)^(-1/2)) * gamma[d] + beta[d] + x[i,d]) 0`, where `mb` and `vb` are the per-graph
  mean and variance rows fetched for the node's graph by a one-hot weighted sum over the 512 graph numbers.
-/
import proofs.«400646_j24386824306904_1_alg».proof.Proof.LibGraphNorm
import Idealize.ShloMosaic.PureOps.Ideal
import Idealize.ShloMosaic.Lib.ValueIdx

noncomputable section

open scoped BigOperators

namespace Cert.NormSpec

open Idealize.ShloMosaic Idealize.ShloMosaic.ValueIdx Cert.LibGraphNorm

/-- The one-hot weighted sum of a `[1, 512]` row for the graph-id word `w`. -/
def pick (w : BitVec 32) (R : (⟨2, ![1, 512]⟩ : Shape).Idx → EReal) : EReal :=
  ∑ k : Fin 512, oneHot w (BitVec.ofNat 32 k.val) * R (ix2 (0 : Fin 1) k)

/-- The normalisation kernel's result at node `i`, channel `d`. -/
def normAt (P : (⟨2, ![100000, 64]⟩ : Shape).Idx → EReal) (G : (⟨2, ![100000, 1]⟩ : Shape).Idx → BitVec 32)
    (M Vr : (⟨2, ![1, 512]⟩ : Shape).Idx → EReal) (Γ B : (⟨2, ![1, 64]⟩ : Shape).Idx → EReal)
    (X : (⟨2, ![100000, 64]⟩ : Shape).Idx → EReal) (i : Fin 100000) (d : Fin 64) : EReal :=
  max ((((P (ix2 i d) - pick (G (ix2 i (0 : Fin 1))) M)
          * Ideal.rsqrt (pick (G (ix2 i (0 : Fin 1))) Vr + Ideal.ofBits .f32 0x3727C5AC#32))
        * Γ (ix2 (0 : Fin 1) d) + B (ix2 (0 : Fin 1) d)) + X (ix2 i d)) 0

end Cert.NormSpec

end
-- ==== Proof.NormRegion.lean ====
/-
  The second region (the normalisation kernel) read as a value: after the run, the result array holds at every node
  and channel the formula `NormSpec.normAt` of the arrays the region was entered with.

  The steps. (1) The value the body stores, at row `p` and lane `q` of a block of 5000 node rows: the graph-id
  column compared against the 512 lane numbers gives 0/1 weights, the weighted lane sums of the mean and variance
  rows are `NormSpec.pick` of the row's graph-id word, and the rest is pointwise: subtract the mean, multiply by
  the reciprocal square root of variance plus the small constant, scale, shift, add the residual, clamp below at
  zero. (2) Each loaded block is a part of its array: the node rows, graph ids and residual rows of point `t` are
  rows `5000 t … 5000 t + 4999`, the four parameter rows are whole. (3) So what point `t` writes back is block
  `t` of ONE whole-array function, the 20 blocks cover the 100000 rows (row `r` lies in block `r / 5000`), and the
  result array is that function.
-/
import proofs.«400646_j24386824306904_1_alg».proof.Proof.PatchedKernelIdealFrame
import proofs.«400646_j24386824306904_1_alg».proof.Proof.NormSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NormRegion

open Idealize.ShloMosaic Idealize.ShloMosaic.TcCoe Idealize.ShloMosaic.ValueIdx Idealize.SL.Sem
open Cert.KernelIdeal Cert.KernelIdeal.Gen Cert.LibGraphNorm Cert.NormSpec

/-- The float of a widened equality bit is the one-hot weight: 1 when the two words are equal, 0 otherwise. -/
private theorem sitofp_eq_bit (a b : BitVec 32) :
    (FloatOps.sitofp (F := Ideal) .f32 ((IntOp.cmpi .eq a b).setWidth 32) : EReal) = oneHot a b := by
  unfold oneHot
  by_cases h : a = b
  · subst h
    rw [if_pos rfl]
    show (((((BitVec.ofBool (a == a)).setWidth 32).toInt : ℝ)) : EReal) = 1
    simp
  · rw [if_neg h]
    show (((((BitVec.ofBool (a == b)).setWidth 32).toInt : ℝ)) : EReal) = 0
    have : (a == b) = false := by simpa using h
    rw [this]
    simp

section Layout
variable {α : Type}

/-- A vector of length `a` cast to one column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` cast to a vector of length `a` reads, at `i`, the operand at `(i, 0)`. -/
private theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- One column `[a, 1]` broadcast over `b` lanes reads, at `(p, c)`, the column's entry at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Payload

/-- The reciprocal square root of a vector, at an index. -/
private theorem rsqrt_apply {s : Shape} {φ : FTy} (a : FVec Ideal s φ) (i : s.Idx) : rsqrt a i = Ideal.rsqrt (a i) := rfl

/-- A lane of the compare-widen-convert chain is the one-hot weight of the two compared words. -/
private theorem onehot_apply {s : Shape} (A B : IVec s 32) (h : 1 < 32) (j : s.Idx) :
    (sitofp .f32 (extui 32 (cmpi .eq A B) h) : FVec Ideal s .f32) j = oneHot (A j) (B j) :=
  sitofp_eq_bit (A j) (B j)

/-- The lane sum of a `[5000, 512]` array at row `p` is the sum of the row's 512 entries. -/
private theorem lane_sum_apply (W : FVec Ideal S5000x512 .f32) (hφ : FKind.Formats .f32)
    (hacc : (0x00000000#32 : BitVec 32) = 0x00000000#32) (p : Fin 5000) :
    multiReduction .add [1] S5000 W 0x00000000#32 reduces_S5000x512_S5000 hφ hacc (ix1 p)
      = ∑ k : Fin 512, W (ix2 p k) := by
  refine (Ideal.multiReduction_add_single W _ reduces_S5000x512_S5000 hφ hacc (ix1 p)).trans ?_
  show ∑ k : Fin 512, W (reduces_S5000x512_S5000.lift (ix1 p) k) = _
  refine Finset.sum_congr rfl fun k _ => congrArg W ?_
  funext c
  apply Fin.ext
  match c with
  | ⟨0, _⟩ => rfl
  | ⟨1, _⟩ => rfl

/-- The lane number array along axis 1 reads, at `(p, k)`, the word of `k`. -/
private theorem lane_iota_apply (p : Fin 5000) (k : Fin 512) :
    iota .tc S5000x512 32 [1] iota_S5000x512_d1_w32 (ix2 p k) = BitVec.ofNat 32 k.val :=
  iota_single_apply .tc S5000x512 32 1 iota_S5000x512_d1_w32 (ix2 p k)

/-- The one-hot weighted lane sum of a `[1, 512]` row `R` at node row `p`: the graph-id column broadcast against
    the lane numbers, compared, converted to 0/1 weights, multiplied into the row and summed over the 512 lanes, is
    `pick` of the row's graph-id word. -/
private theorem pick_apply (v0 : S5000x1.Idx → BitVec 32) (R : S1x512.Idx → EReal) (hφ : FKind.Formats .f32)
    (hacc : (0x00000000#32 : BitVec 32) = 0x00000000#32) (p : Fin 5000) :
    multiReduction (F := Ideal) .add [1] S5000
        (mulf
          (sitofp .f32
            (extui 32
              (cmpi .eq
                (broadcastTo S5000x512
                  (shapeCast S5000x1 (shapeCast S5000 v0 shapeCasts_S5000x1_S5000) shapeCasts_S5000_S5000x1)
                  broadcasts_S5000x1_S5000x512)
                (iota .tc S5000x512 32 [1] iota_S5000x512_d1_w32))
              natLt_1_32))
          (broadcastTo S5000x512 R broadcasts_S1x512_S5000x512))
        0x00000000#32 reduces_S5000x512_S5000 hφ hacc (ix1 p)
      = pick (v0 (ix2 p (0 : Fin 1))) R := by
  refine (lane_sum_apply _ hφ hacc p).trans ?_
  unfold pick
  refine Finset.sum_congr rfl fun k _ => ?_
  rw [mulf_apply, onehot_apply, broadcastTo_1b_ab_apply, broadcastTo_a1_ab_apply, shapeCast_a_a1_apply,
    shapeCast_a1_a_apply, lane_iota_apply]

end Payload

/-- The region's stored value at row `p`, lane `q` of a block, from the blocks it loads: the node value minus its
    graph's mean, times the reciprocal square root of the graph's variance plus the small constant, scaled, shifted,
    the residual added, and the whole clamped below at zero. -/
private theorem stored_value_apply (v0 : S5000x1.Idx → BitVec 32) (v9 v11 : S1x512.Idx → EReal) (v21 : S5000x64.Idx → EReal)
    (v30 v34 : S1x64.Idx → EReal) (v38 : S5000x64.Idx → EReal) (p : Fin 5000) (q : Fin 64) :
    k1_pay1 (k1_pay2 (F := Ideal) v0 v9 v11 v21 v30 v34 v38) (k1_pay3 (F := Ideal)) (ix2 p q)
      = max ((((v21 (ix2 p q) - pick (v0 (ix2 p (0 : Fin 1))) v9)
            * Ideal.rsqrt (pick (v0 (ix2 p (0 : Fin 1))) v11 + Ideal.ofBits .f32 0x3727C5AC#32))
          * v30 (ix2 (0 : Fin 1) q) + v34 (ix2 (0 : Fin 1) q)) + v38 (ix2 p q)) 0 := by
  unfold k1_pay1 k1_pay2 k1_pay3
  dsimp only
  simp only [maximumf_apply, addf_apply, mulf_apply, subf_apply, rsqrt_apply, broadcast_apply, shapeCast_self,
    broadcastTo_1b_ab_apply, broadcastTo_a1_ab_apply, shapeCast_a_a1_apply]
  rw [pick_apply, pick_apply, Ideal.ofBits_def, Ideal.ofBits_def, Ideal.ofBits_zero_f32]

/-! ## The arrays the region is entered with, and the blocks it loads, at their literal types

Everything up to the whole-array statement is over ANY contents `V` the region may find. -/

section Region
variable (V : (c : Dev nD) → (b : Ref sig .tc) → Buf (Elt Ideal) ((c : Thread nD τ).loc b))

/-- The node array `[100000, 64]` the region finds. -/
private abbrev nodeArr (c : Dev nD) : S100000x64.Idx → EReal := V c (Pipeline.arrRef spec1 0)
/-- The graph-id column `[100000, 1]`. -/
private abbrev idArr (c : Dev nD) : S100000x1.Idx → BitVec 32 := V c (Pipeline.arrRef spec1 1)
/-- The per-graph mean row `[1, 512]`. -/
private abbrev meanArr (c : Dev nD) : S1x512.Idx → EReal := V c (Pipeline.arrRef spec1 2)
/-- The per-graph variance row `[1, 512]`. -/
private abbrev varArr (c : Dev nD) : S1x512.Idx → EReal := V c (Pipeline.arrRef spec1 3)
/-- The scale row `[1, 64]`. -/
private abbrev scaleArr (c : Dev nD) : S1x64.Idx → EReal := V c (Pipeline.arrRef spec1 4)
/-- The shift row `[1, 64]`. -/
private abbrev shiftArr (c : Dev nD) : S1x64.Idx → EReal := V c (Pipeline.arrRef spec1 5)
/-- The residual input `[100000, 64]`. -/
private abbrev resArr (c : Dev nD) : S100000x64.Idx → EReal := V c (Pipeline.arrRef spec1 6)

/-- Grid point `t`'s block of 5000 node rows. -/
private abbrev nodeBlk (c : Dev nD) (t : Fin cfg1.N) : S5000x64.Idx → EReal := iblk1 V c 0 t
/-- Grid point `t`'s block of 5000 graph ids. -/
private abbrev idBlk (c : Dev nD) (t : Fin cfg1.N) : S5000x1.Idx → BitVec 32 := iblk1 V c 1 t
/-- The mean row as grid point `t` loads it. -/
private abbrev meanBlk (c : Dev nD) (t : Fin cfg1.N) : S1x512.Idx → EReal := iblk1 V c 2 t
/-- The variance row as grid point `t` loads it. -/
private abbrev varBlk (c : Dev nD) (t : Fin cfg1.N) : S1x512.Idx → EReal := iblk1 V c 3 t
/-- The scale row as grid point `t` loads it. -/
private abbrev scaleBlk (c : Dev nD) (t : Fin cfg1.N) : S1x64.Idx → EReal := iblk1 V c 4 t
/-- The shift row as grid point `t` loads it. -/
private abbrev shiftBlk (c : Dev nD) (t : Fin cfg1.N) : S1x64.Idx → EReal := iblk1 V c 5 t
/-- Grid point `t`'s block of 5000 residual rows. -/
private abbrev resBlk (c : Dev nD) (t : Fin cfg1.N) : S5000x64.Idx → EReal := iblk1 V c 6 t

/-- The whole result array: at node `i`, channel `d` the normalisation formula of the arrays the region finds. -/
private def normArr (c : Dev nD) : S100000x64.Idx → EReal := fun j =>
  normAt (nodeArr V c) (idArr V c) (meanArr V c) (varArr V c) (scaleArr V c) (shiftArr V c) (resArr V c) (j 0) (j 1)

private theorem zero_offsets : (![0, 0] : Fin 2 → Nat) = fun _ => 0 :=
  funext fun a => match a with | ⟨0, _⟩ => rfl | ⟨1, _⟩ => rfl

/-- The index maps over the grid: the node rows, the graph ids, the residual and the result move together, block `t`
    of 5000 rows at point `t`; the four rows are fetched whole. -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of point `t`'s node block is row `5000 t + p` of the node array. -/
private theorem nodeBlk_apply (c : Dev nD) (t : Fin cfg1.N) (p : Fin 5000) (q : Fin 64) (i : Fin 100000)
    (hi : i.val = t.val * 5000 + p.val) : nodeBlk V c t (ix2 p q) = nodeArr V c (ix2 i q) := by
  obtain ⟨e0, e1, -⟩ := block_indices t
  show V c (Pipeline.arrRef spec1 0) (((cfg1.win 0).blk t).view.emb (ix2 p q)) = V c (Pipeline.arrRef spec1 0) (ix2 i q)
  refine congrArg (V c (Pipeline.arrRef spec1 0)) (funext fun a => Fin.ext ?_)
  have h := Pipeline.Window.rect_emb_val win1_0 t (ix2 p q) a
  match a with
  | ⟨0, _⟩ =>
    have hs : win1_0.size (0 : Fin 2) = 5000 := rfl
    have h0 : ((win1_0.rect t).emb (ix2 p q) (0 : Fin 2) : Nat) = win1_0.index t (0 : Fin 2) * win1_0.size (0 : Fin 2) + p.val := h
    rw [hs, e0] at h0
    exact h0.trans hi.symm
  | ⟨1, _⟩ =>
    have hs : win1_0.size (1 : Fin 2) = 64 := rfl
    have h1 : ((win1_0.rect t).emb (ix2 p q) (1 : Fin 2) : Nat) = win1_0.index t (1 : Fin 2) * win1_0.size (1 : Fin 2) + q.val := h
    rw [hs, e1] at h1
    exact h1.trans (show 0 * 64 + q.val = q.val by omega)

/-- Row `p` of point `t`'s residual block is row `5000 t + p` of the residual input. -/
private theorem resBlk_apply (c : Dev nD) (t : Fin cfg1.N) (p : Fin 5000) (q : Fin 64) (i : Fin 100000)
    (hi : i.val = t.val * 5000 + p.val) : resBlk V c t (ix2 p q) = resArr V c (ix2 i q) := by
  obtain ⟨-, -, -, -, -, -, -, -, -, -, -, -, e0, e1, -⟩ := block_indices t
  show V c (Pipeline.arrRef spec1 6) (((cfg1.win 6).blk t).view.emb (ix2 p q)) = V c (Pipeline.arrRef spec1 6) (ix2 i q)
  refine congrArg (V c (Pipeline.arrRef spec1 6)) (funext fun a => Fin.ext ?_)
  have h := Pipeline.Window.rect_emb_val win1_6 t (ix2 p q) a
  match a with
  | ⟨0, _⟩ =>
    have hs : win1_6.size (0 : Fin 2) = 5000 := rfl
    have h0 : ((win1_6.rect t).emb (ix2 p q) (0 : Fin 2) : Nat) = win1_6.index t (0 : Fin 2) * win1_6.size (0 : Fin 2) + p.val := h
    rw [hs, e0] at h0
    exact h0.trans hi.symm
  | ⟨1, _⟩ =>
    have hs : win1_6.size (1 : Fin 2) = 64 := rfl
    have h1 : ((win1_6.rect t).emb (ix2 p q) (1 : Fin 2) : Nat) = win1_6.index t (1 : Fin 2) * win1_6.size (1 : Fin 2) + q.val := h
    rw [hs, e1] at h1
    exact h1.trans (show 0 * 64 + q.val = q.val by omega)

/-- Row `p` of point `t`'s graph-id block is row `5000 t + p` of the graph-id column. -/
private theorem idBlk_apply (c : Dev nD) (t : Fin cfg1.N) (p : Fin 5000) (i : Fin 100000)
    (hi : i.val = t.val * 5000 + p.val) :
    idBlk V c t (ix2 p (0 : Fin 1)) = idArr V c (ix2 i (0 : Fin 1)) := by
  obtain ⟨-, -, e0, e1, -⟩ := block_indices t
  show V c (Pipeline.arrRef spec1 1) (((cfg1.win 1).blk t).view.emb (ix2 p (0 : Fin 1))) = V c (Pipeline.arrRef spec1 1) (ix2 i (0 : Fin 1))
  refine congrArg (V c (Pipeline.arrRef spec1 1)) (funext fun a => Fin.ext ?_)
  have h := Pipeline.Window.rect_emb_val win1_1 t (ix2 p (0 : Fin 1)) a
  match a with
  | ⟨0, _⟩ =>
    have hs : win1_1.size (0 : Fin 2) = 5000 := rfl
    have h0 : ((win1_1.rect t).emb (ix2 p (0 : Fin 1)) (0 : Fin 2) : Nat) = win1_1.index t (0 : Fin 2) * win1_1.size (0 : Fin 2) + p.val := h
    rw [hs, e0] at h0
    exact h0.trans hi.symm
  | ⟨1, _⟩ =>
    have hs : win1_1.size (1 : Fin 2) = 1 := rfl
    have h1 : ((win1_1.rect t).emb (ix2 p (0 : Fin 1)) (1 : Fin 2) : Nat) = win1_1.index t (1 : Fin 2) * win1_1.size (1 : Fin 2) + 0 := h
    rw [hs, e1] at h1
    exact h1

/-- The mean row is loaded whole at every point. -/
private theorem meanBlk_eq (c : Dev nD) (t : Fin cfg1.N) : meanBlk V c t = meanArr V c := by
  obtain ⟨-, -, -, -, e0, e1, -⟩ := block_indices t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => exact Pipeline.Window.rect_emb_val_of_index_zero win1_2 t (0 : Fin 2) e0 y
  | ⟨1, _⟩ => exact Pipeline.Window.rect_emb_val_of_index_zero win1_2 t (1 : Fin 2) e1 y

/-- The variance row is loaded whole at every point. -/
private theorem varBlk_eq (c : Dev nD) (t : Fin cfg1.N) : varBlk V c t = varArr V c := by
  obtain ⟨-, -, -, -, -, -, e0, e1, -⟩ := block_indices t
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => exact Pipeline.Window.rect_emb_val_of_index_zero win1_3 t (0 : Fin 2) e0 y
  | ⟨1, _⟩ => exact Pipeline.Window.rect_emb_val_of_index_zero win1_3 t (1 : Fin 2) e1 y

/-- The scale row is loaded whole at every point. -/
private theorem scaleBlk_eq (c : Dev nD) (t : Fin cfg1.N) : scaleBlk V c t = scaleArr V c := by
  obtain ⟨-, -, -, -, -, -, -, -, e0, e1, -⟩ := block_indices t
  funext y
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => exact Pipeline.Window.rect_emb_val_of_index_zero win1_4 t (0 : Fin 2) e0 y
  | ⟨1, _⟩ => exact Pipeline.Window.rect_emb_val_of_index_zero win1_4 t (1 : Fin 2) e1 y

/-- The shift row is loaded whole at every point. -/
private theorem shiftBlk_eq (c : Dev nD) (t : Fin cfg1.N) : shiftBlk V c t = shiftArr V c := by
  obtain ⟨-, -, -, -, -, -, -, -, -, -, e0, e1, -⟩ := block_indices t
  funext y
  show V c (Pipeline.arrRef spec1 5) (((cfg1.win 5).blk t).view.emb y) = V c (Pipeline.arrRef spec1 5) y
  refine congrArg (V c (Pipeline.arrRef spec1 5)) (funext fun a => Fin.ext ?_)
  match a with
  | ⟨0, _⟩ => exact Pipeline.Window.rect_emb_val_of_index_zero win1_5 t (0 : Fin 2) e0 y
  | ⟨1, _⟩ => exact Pipeline.Window.rect_emb_val_of_index_zero win1_5 t (1 : Fin 2) e1 y

/-- What point `t` stores at row `p`, lane `q` of its block is the result array's entry at node `5000 t + p`. -/
private theorem block_value (c : Dev nD) (t : Fin cfg1.N) (p : Fin 5000) (q : Fin 64) (i : Fin 100000)
    (hi : i.val = t.val * 5000 + p.val) :
    k1_pay1 (k1_pay2 (F := Ideal) (idBlk V c t) (meanBlk V c t) (varBlk V c t) (nodeBlk V c t) (scaleBlk V c t)
        (shiftBlk V c t) (resBlk V c t)) (k1_pay3 (F := Ideal)) (ix2 p q)
      = normArr V c (ix2 i q) := by
  refine (stored_value_apply (idBlk V c t) (meanBlk V c t) (varBlk V c t) (nodeBlk V c t) (scaleBlk V c t)
    (shiftBlk V c t) (resBlk V c t) p q).trans ?_
  rw [nodeBlk_apply V c t p q i hi, resBlk_apply V c t p q i hi, idBlk_apply V c t p i hi, meanBlk_eq V c t,
    varBlk_eq V c t, scaleBlk_eq V c t, shiftBlk_eq V c t]
  rfl

/-- WHAT POINT `t` WRITES BACK is block `t` of the result array. -/
private theorem written_back_eq (c : Dev nD) (t : Fin cfg1.N) :
    (dat1 V c).flushed 7 t = ((cfg1.win 7).blk t).view.read (Elt Ideal) (normArr V c) := by
  show (cfg1.win 7).cut (grid1.coords t) ((dat1 V c).after 7 t) = _
  rw [after1_7]
  unfold out1_7
  rw [View.canon_unit_zero zero_offsets]
  simp only [View.ld_unit_zero (S := S5000x64) zero_offsets, View.ld_unit_zero (S := S5000x1) zero_offsets,
    View.ld_unit_zero (S := S1x512) zero_offsets, View.ld_unit_zero (S := S1x64) zero_offsets]
  funext j
  have hj0 : (j 0).val < 5000 := (j 0).isLt
  have hj1 : (j 1).val < 64 := (j 1).isLt
  have hN : cfg1.N = 20 := N_1
  have ht : t.val < 20 := hN ▸ t.isLt
  obtain ⟨-, -, -, -, -, -, -, -, -, -, -, -, -, -, e0, e1⟩ := block_indices t
  have hL : (cfg1.win 7).xinj (grid1.coords t) j = ix2 (⟨(j 0).val, hj0⟩ : Fin 5000) (⟨(j 1).val, hj1⟩ : Fin 64) :=
    funext fun a => Fin.ext (match a with | ⟨0, _⟩ => rfl | ⟨1, _⟩ => rfl)
  have hR : ((cfg1.win 7).blk t).view.emb j
      = ix2 (⟨t.val * 5000 + (j 0).val, by omega⟩ : Fin 100000) (⟨(j 1).val, hj1⟩ : Fin 64) := by
    funext a
    apply Fin.ext
    have h := Pipeline.Window.rect_emb_val win1_7 t j a
    match a with
    | ⟨0, _⟩ =>
      have hs : win1_7.size (0 : Fin 2) = 5000 := rfl
      have h0 : ((win1_7.rect t).emb j (0 : Fin 2) : Nat) = win1_7.index t (0 : Fin 2) * win1_7.size (0 : Fin 2) + (j 0).val := h
      rw [hs, e0] at h0
      exact h0
    | ⟨1, _⟩ =>
      have hs : win1_7.size (1 : Fin 2) = 64 := rfl
      have h1 : ((win1_7.rect t).emb j (1 : Fin 2) : Nat) = win1_7.index t (1 : Fin 2) * win1_7.size (1 : Fin 2) + (j 1).val := h
      rw [hs, e1] at h1
      exact h1.trans (show 0 * 64 + (j 1).val = (j 1).val by omega)
  show k1_pay1 (k1_pay2 (F := Ideal) (idBlk V c t) (meanBlk V c t) (varBlk V c t) (nodeBlk V c t) (scaleBlk V c t)
        (shiftBlk V c t) (resBlk V c t)) (k1_pay3 (F := Ideal)) ((cfg1.win 7).xinj (grid1.coords t) j)
      = normArr V c (((cfg1.win 7).blk t).view.emb j)
  rw [hL, hR]
  exact block_value V c t _ _ _ rfl

/-- An index of the result array is in point `t`'s block iff each coordinate is in the block's range on its axis. -/
private theorem mem_block_iff (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v49).slice (win1_7.rect t)).set ↔ _
  rw [View.set_slice_whole, Rect.mem_set_unit]
  exact Iff.rfl

/-- Every node row lies in the block of the point numbered by the row divided by 5000. -/
private theorem rows_covered (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1⟩ := block_indices t
  refine ⟨t, flush1_7 t, ?_⟩
  rw [mem_block_iff]
  intro a
  match a with
  | ⟨0, _⟩ =>
    have hs : S5000x64.size (0 : Fin 2) = 5000 := rfl
    show win1_7.index t (0 : Fin 2) * S5000x64.size (0 : Fin 2) ≤ (i 0).val
      ∧ (i 0).val < win1_7.index t (0 : Fin 2) * S5000x64.size (0 : Fin 2) + S5000x64.size (0 : Fin 2)
    rw [hs, e0, ht]
    omega
  | ⟨1, _⟩ =>
    have hs : S5000x64.size (1 : Fin 2) = 64 := rfl
    show win1_7.index t (1 : Fin 2) * S5000x64.size (1 : Fin 2) ≤ (i 1).val
      ∧ (i 1).val < win1_7.index t (1 : Fin 2) * S5000x64.size (1 : Fin 2) + S5000x64.size (1 : Fin 2)
    rw [hs, e1]
    omega

/-- THE RESULT ARRAY after the region: the normalisation formula at every node and channel. -/
private theorem result_array_eq (c : Dev nD) : (dat1 V c).arrAt 7 cfg1.N = normArr V c :=
  (dat1 V c).arrAt_eq_of_cover 7 (normArr V c) (fun t _ => written_back_eq V c t) rows_covered

end Region

variable (m : (ℓ : Loc nD τ sig) → Buf (Elt Ideal) ℓ) (ρ : Dev nD → PrngReg)

/-- After the run the result array, at node `i` and channel `d`, is the normalisation formula of the arrays the
    second region found: the node array, the graph-id column, the mean and variance rows, the scale and shift rows
    and the residual input. -/
theorem out_apply (c : Dev nD) (i : Fin 100000) (d : Fin 64) :
    (W4 m ρ c (Proc.devRef .tc main_v49) : S100000x64.Idx → EReal) (ix2 i d)
      = normAt (V3 m ρ c main_v22) (V3 m ρ c main_v44) (V3 m ρ c main_v47) (V3 m ρ c main_v48)
          (V3 m ρ c main_v45) (V3 m ρ c main_v46) (V3 m ρ c main_arg0) i d := by
  have h : W4 m ρ c (Proc.devRef .tc (Pipeline.arrRef spec1 7)) = normArr (V3 m ρ) c :=
    (W4_arr m ρ c 7).trans (result_array_eq (V3 m ρ) c)
  exact congrFun h (ix2 i d)

end Cert.KernelIdeal.NormRegion

end
-- ==== Proof.RefRead.lean ====
/-
  The reference's last stage read at one node and channel.

  When node `i`'s graph id is the number `k < 512`, the wrapped id is `k` itself, the two gathers read the mean and
  the square root of variance plus epsilon at graph `k`, and the broadcasts along rows and columns read their one
  entry; so the stage is `max (((P[i,d] - mean[k]) / sqrt (var[k] + eps)) * gamma[d] + beta[d] + x[i,d]) 0`.
-/
import proofs.«400646_j24386824306904_1_alg».proof.Proof.Stages
import Idealize.ShloMosaic.PureOps.Ideal.Laws
import Idealize.ShloMosaic.Lib.ValueIdx
import Idealize.ShloMosaic.Lib.Pipeline.Value
import Idealize.ShloMosaic.Lib.StableHlo.Predicate

noncomputable section

namespace Cert.RefRead

open Idealize.ShloMosaic Idealize.ShloMosaic.ValueIdx Cert.ReferenceIdeal Cert.ReferenceIdeal.Gen Cert.Stages

/-- The two ways of writing the rank-1 index at coordinate `p` agree. -/
private theorem ofFin_eq_ix1 {n : Nat} (p : Fin n) : (Shape.Idx.ofFin p : (⟨1, ![n]⟩ : Shape).Idx) = ix1 p :=
  (Shape.Idx.eq_ofFin (ix1 p)).symm

/-- The two ways of writing the rank-2 index at coordinates `(p, q)` agree. -/
private theorem ix2_eq_ij {n m : Nat} (p : Fin n) (q : Fin m) :
    (ix2 p q : (⟨2, ![n, m]⟩ : Shape).Idx) = StableHlo.Predicate.ij p q := by
  funext b
  match b with
  | ⟨0, _⟩ => rfl
  | ⟨1, _⟩ => rfl

/-- A per-node value repeated over the channels reads, at `(i, d)`, the value of node `i`. -/
private theorem rows_apply (v : FVec Ideal S100000 .f32) (i : Fin 100000) (d : Fin 64) :
    rows (F := Ideal) v (ix2 i d) = v (ix1 i) := by
  unfold rows
  rw [ix2_eq_ij, StableHlo.Predicate.bcast_rows, ofFin_eq_ix1]

/-- A per-channel value repeated over the nodes reads, at `(i, d)`, the value of channel `d`. -/
private theorem cols_apply (v : FVec Ideal S64 .f32) (i : Fin 100000) (d : Fin 64) :
    cols (F := Ideal) v (ix2 i d) = v (ix1 d) := by
  unfold cols
  rw [ix2_eq_ij, StableHlo.Predicate.bcast_cols, ofFin_eq_ix1]

/-- A graph id that is the number `k < 512` is not negative, so wrapping leaves it alone. -/
private theorem gWrap_apply (g : IVec S100000 32) (i : Fin 100000) (k : Fin 512)
    (hk : g (ix1 i) = BitVec.ofNat 32 k.val) :
    gWrap g (StableHlo.Predicate.ixP i) = BitVec.ofNat 32 k.val := by
  unfold gWrap
  rw [StableHlo.Predicate.bcast_col1, ofFin_eq_ix1, select_apply]
  show Scalar.select (IntOp.cmpi .slt (g (ix1 i)) 0#32) (IntOp.addi (g (ix1 i)) 512#32) (g (ix1 i)) = _
  rw [hk]
  have hlt : ¬ (BitVec.ofBool ((BitVec.ofNat 32 k.val).slt (BitVec.ofNat 32 0)) = 1#1) := by
    rw [StableHlo.Predicate.slt_ofNat_iff k.val 0 (by have := k.isLt; omega) (by norm_num)]
    omega
  show (if BitVec.ofBool ((BitVec.ofNat 32 k.val).slt (BitVec.ofNat 32 0)) = 1 then _ else _) = _
  exact if_neg hlt

/-- The gather at the wrapped id of node `i` reads the table at graph `k`. -/
private theorem gather_at {α : Type} (T : S512.Idx → α) (g : IVec S100000 32) (i : Fin 100000) (k : Fin 512)
    (hk : g (ix1 i) = BitVec.ofNat 32 k.val) :
    Host.gather gather_S512_S100000x1_S100000_n_0_n_n_0_1_1 T (gWrap g) (ix1 i) = T (ix1 k) := by
  rw [← ofFin_eq_ix1, ← ofFin_eq_ix1,
    StableHlo.Predicate.gather_take gather_S512_S100000x1_S100000_n_0_n_n_0_1_1 rfl rfl rfl rfl T (gWrap g) i (by norm_num)]
  refine congrArg (fun q : Fin 512 => T (Shape.Idx.ofFin q)) (Fin.ext ?_)
  show min (gWrap g (StableHlo.Predicate.ixP i)).toInt.toNat (512 - 1) = k.val
  rw [gWrap_apply g i k hk, StableHlo.Predicate.toInt_ofNat_small k.val (by have := k.isLt; omega)]
  have := k.isLt
  omega

/-- A quotient of two arrays at an index is the quotient of the entries. -/
private theorem hostDivf_apply {s : Shape} (a b : FVec Ideal s .f32) (j : s.Idx) :
    Host.divf a b j = Ideal.div (a j) (b j) := rfl

/-- A square root of an array at an index is the square root of the entry. -/
private theorem hostSqrt_apply {s : Shape} (a : FVec Ideal s .f32) (j : s.Idx) :
    Host.sqrt a j = Ideal.sqrt (a j) := rfl

/-- The epsilon array reads the one constant everywhere. -/
private theorem epsG_apply (j : S512.Idx) : epsG (F := Ideal) j = Ideal.ofBits .f32 0x3727C5AC#32 := by
  unfold epsG
  rw [StableHlo.Predicate.bcast_scalar _ h_S_, constant_apply]

/-- The clamp's zero array reads zero everywhere. -/
private theorem zero_apply (j : S100000x64.Idx) :
    broadcastInDim S100000x64 ![] bcast_S_S100000x64 (constant (F := Ideal) S_ .f32 0x00000000#32) j = 0 :=
  Ideal.ofBits_zero_f32

/-- The reference's last stage at node `i`, channel `d`, for a node whose graph id is `k`. -/
theorem refOut_apply (P : FVec Ideal S100000x64 .f32) (g : IVec S100000 32) (γ β : FVec Ideal S64 .f32)
    (x : FVec Ideal S100000x64 .f32) (i : Fin 100000) (d : Fin 64) (k : Fin 512)
    (hk : g (ix1 i) = BitVec.ofNat 32 k.val) :
    Cert.Stages.refOut (F := Ideal) P g γ β x (ix2 i d)
      = max ((Ideal.div (P (ix2 i d) - Cert.Stages.mean (F := Ideal) P g (ix1 k))
                (Ideal.sqrt (Cert.Stages.var (F := Ideal) P g (ix1 k) + Ideal.ofBits .f32 0x3727C5AC#32))
              * γ (ix1 d) + β (ix1 d)) + x (ix2 i d)) 0 := by
  have hm : rows (F := Ideal) (Host.gather gather_S512_S100000x1_S100000_n_0_n_n_0_1_1 (mean P g) (gWrap g)) (ix2 i d)
      = mean (F := Ideal) P g (ix1 k) := by
    rw [rows_apply, gather_at _ g i k hk]
  have hs : rows (F := Ideal) (Host.gather gather_S512_S100000x1_S100000_n_0_n_n_0_1_1
        (Host.sqrt (addf (var P g) epsG)) (gWrap g)) (ix2 i d)
      = Ideal.sqrt (var (F := Ideal) P g (ix1 k) + Ideal.ofBits .f32 0x3727C5AC#32) := by
    rw [rows_apply, gather_at _ g i k hk, hostSqrt_apply, addf_apply, epsG_apply]
  unfold Cert.Stages.refOut
  simp only [maximumf_apply, addf_apply, mulf_apply, subf_apply, hostDivf_apply, hm, hs, cols_apply]
  exact congrArg (max _) (zero_apply (ix2 i d))

end Cert.RefRead

end
-- ==== Proof.RefStages.lean ====
/-
  The reference's result stage is `refOut` of the node array `outPre` made from its message stage: the generated
  stage definitions, unfolded, are the functions of `Stages.lean` term for term.
-/
import proofs.«400646_j24386824306904_1_alg».proof.Proof.Gen.ReferenceIdeal.Read
import proofs.«400646_j24386824306904_1_alg».proof.Proof.Stages

set_option maxRecDepth 16384

noncomputable section

namespace Cert.RefStages

open Idealize.ShloMosaic Cert.ReferenceIdeal Cert.ReferenceIdeal.Gen Cert.ReferenceIdeal.Read Cert.Stages

variable {F : FTy → Type} [FloatOps F]

/-- The reference's last stage, as `refOut` of the node array before normalisation. -/
theorem out_eq (x0 : (⟨S100000x64, .f32⟩ : BufTy).Contents (Elt F)) (x1 : (⟨S2x1600000, .i32⟩ : BufTy).Contents (Elt F))
    (x2 : (⟨S1600000x64, .f32⟩ : BufTy).Contents (Elt F)) (x3 : (⟨S100000, .i32⟩ : BufTy).Contents (Elt F))
    (x11 : (⟨S64x64, .f32⟩ : BufTy).Contents (Elt F)) (x12 : (⟨S64, .f32⟩ : BufTy).Contents (Elt F))
    (x13 : (⟨S64x64, .f32⟩ : BufTy).Contents (Elt F)) (x14 : (⟨S64, .f32⟩ : BufTy).Contents (Elt F))
    (x15 : (⟨S1, .f32⟩ : BufTy).Contents (Elt F)) (x16 x17 : (⟨S64, .f32⟩ : BufTy).Contents (Elt F)) :
    val_main_v166 (F := F) x0 x1 x2 x3 x11 x12 x13 x14 x15 x16 x17
      = refOut (outPre (val_main_v104 (F := F) x0 x1 x2 x11 x12 x13 x14) x1 x0 x15) x3 x16 x17 x0 := rfl

end Cert.RefStages

end
-- ==== Proof.LibSegmentSum.lean ====
/-
  The segment sum read at one segment.

  jax's `segment_sum(u, ids, num_segments = G)` over a vector `u` of `N` values prints as an accumulating scatter
  into a table of `G` entries whose start indices are the `[N, 1]` column of the ids: the one operand axis is an
  inserted window axis and the one the start index names, there are no window axes, and the index vector lies on
  axis 1.  At the ideal instance entry `k` of the result is the table's entry plus the exact sum of the `u i` over the
  positions `i` whose id, read as a signed integer, is `k`; an id outside `[0, G)` lands nowhere.
-/
import Mathlib.Algebra.BigOperators.Group.Finset.Basic
import Idealize.ShloMosaic.PureOps.Ideal
import Idealize.ShloMosaic.Lib.ValueIdx
import Idealize.ShloMosaic.Lib.StableHlo.Predicate

open scoped BigOperators

namespace Cert.LibSegmentSum

open Idealize.ShloMosaic Idealize.ShloMosaic.ValueIdx Idealize.ShloMosaic.StableHlo.Predicate

/-- Every coordinate of a rank-1 index built from `i` is `i`. -/
private theorem ix1_val {n : Nat} (i : Fin n) (a : Fin 1) : ((ix1 i : (⟨1, ![n]⟩ : Shape).Idx) a).val = i.val := by
  have ha : a = 0 := Subsingleton.elim _ _
  subst ha; rfl

/-- The scatter-indices index the update at position `i` reads its (one) start component at is row `i` of the column. -/
private theorem siIdx_ix1 {G N : Nat} (d : ScatterDims ⟨1, ![G]⟩ ⟨2, ![N, 1]⟩ ⟨1, ![N]⟩)
    (hsd : d.scatterDimsToOperandDims = [0]) (hiv : d.indexVectorDim = 1)
    (i : Fin N) (c : Fin d.scatterDimsToOperandDims.length) :
    d.siIdx (ix1 i) c = ixP i := by
  funext b
  match b with
  | ⟨0, _⟩ =>
    unfold ScatterDims.siIdx
    rw [dif_neg (by rw [hiv]; simp)]
    unfold ScatterDims.siCoord
    apply Fin.ext
    simp only [Fin.val_cast]
    exact ix1_val i _
  | ⟨1, _⟩ =>
    unfold ScatterDims.siIdx
    rw [dif_pos (by rw [hiv])]
    apply Fin.ext
    show c.val = 0
    have hl : d.scatterDimsToOperandDims.length = 1 := by rw [hsd]; rfl
    have hc := c.isLt
    omega

/-- The window of the update at position `i` starts, on the one operand axis, at its id read signed. -/
private theorem start_ix1 {G N w : Nat} (d : ScatterDims ⟨1, ![G]⟩ ⟨2, ![N, 1]⟩ ⟨1, ![N]⟩)
    (hsd : d.scatterDimsToOperandDims = [0]) (hiv : d.indexVectorDim = 1)
    (idx : IVec ⟨2, ![N, 1]⟩ w) (i : Fin N) (a : Fin 1) :
    d.start (ix1 i) idx a = (idx (ixP i)).toInt := by
  have ha : a = 0 := Subsingleton.elim _ _
  subst ha
  have hm : (0 : Fin 1) ∈ d.scatterDimsToOperandDims := by rw [hsd]; exact List.mem_singleton.mpr rfl
  unfold ScatterDims.start
  rw [dif_pos hm, siIdx_ix1 d hsd hiv]

/-- The one operand axis is inserted: the window coordinate on it is zero. -/
private theorem window_zero {G N : Nat} (d : ScatterDims ⟨1, ![G]⟩ ⟨2, ![N, 1]⟩ ⟨1, ![N]⟩)
    (hiw : d.insertedWindowDims = [0]) (j : (⟨1, ![N]⟩ : Shape).Idx) (a : Fin 1) :
    d.window j a = 0 := by
  have ha : a = 0 := Subsingleton.elim _ _
  subst ha
  have hk : (0 : Fin 1) ∉ d.sKept := by
    simp [ScatterDims.sKept, Shape.kept, hiw]
  unfold ScatterDims.window
  rw [dif_neg hk]

/-- The update at position `i` lands on entry `k` exactly when its id, read signed, is `k`. -/
private theorem resultIdx_ix1_iff {G N w : Nat} (d : ScatterDims ⟨1, ![G]⟩ ⟨2, ![N, 1]⟩ ⟨1, ![N]⟩)
    (hiw : d.insertedWindowDims = [0]) (hsd : d.scatterDimsToOperandDims = [0]) (hiv : d.indexVectorDim = 1)
    (idx : IVec ⟨2, ![N, 1]⟩ w) (i : Fin N) (k : Fin G) :
    d.resultIdx? (ix1 i) idx = some (ix1 k) ↔ (idx (ixP i)).toInt = (k.val : ℤ) := by
  have hs : ∀ a : Fin 1, d.start (ix1 i) idx a = (idx (ixP i)).toInt := start_ix1 d hsd hiv idx i
  have hw : ∀ a : Fin 1, d.window (ix1 i) a = 0 := window_zero d hiw (ix1 i)
  have hG : ∀ a : Fin 1, (⟨1, ![G]⟩ : Shape).size a = G := fun a => by
    have ha : a = 0 := Subsingleton.elim _ _
    subst ha; rfl
  have hk := k.isLt
  unfold ScatterDims.resultIdx?
  constructor
  · intro e
    split at e
    · next h =>
      have h0 := h 0
      have e0 := congrArg (fun f : (⟨1, ![G]⟩ : Shape).Idx => (f 0).val) (Option.some.inj e)
      simp only [hs, hw] at e0 h0
      change ((idx (ixP i)).toInt + ((0 : Nat) : ℤ)).toNat = k.val at e0
      omega
    · exact absurd e (by simp)
  · intro e
    have h : ∀ a : Fin 1, 0 ≤ d.start (ix1 i) idx a + d.window (ix1 i) a
        ∧ d.start (ix1 i) idx a + d.window (ix1 i) a < (⟨1, ![G]⟩ : Shape).size a := by
      intro a
      rw [hs, hw, hG, e]
      constructor <;> omega
    rw [dif_pos h]
    congr 1
    funext a
    apply Fin.ext
    rw [ix1_val]
    show (d.start (ix1 i) idx a + d.window (ix1 i) a).toNat = k.val
    rw [hs, hw, e]
    omega

/-- Entry `k` of a segment sum is the table's entry plus the sum of the updates whose id is `k`. -/
theorem segment_sum_apply {G N w : Nat} (d : ScatterDims ⟨1, ![G]⟩ ⟨2, ![N, 1]⟩ ⟨1, ![N]⟩)
    (huw : d.updateWindowDims = []) (hiw : d.insertedWindowDims = [0]) (hsd : d.scatterDimsToOperandDims = [0])
    (hiv : d.indexVectorDim = 1)
    (x : (⟨1, ![G]⟩ : Shape).Idx → EReal) (idx : IVec ⟨2, ![N, 1]⟩ w) (u : (⟨1, ![N]⟩ : Shape).Idx → EReal) (k : Fin G) :
    Ideal.hostScatterAdd d x idx u (ix1 k)
      = x (ix1 k) + ∑ i ∈ Finset.univ.filter (fun i : Fin N => (idx (ixP i)).toInt = (k.val : ℤ)), u (ix1 i) := by
  unfold Ideal.hostScatterAdd
  congr 1
  refine Finset.sum_bij' (fun j _ => j 0) (fun i _ => ix1 i) ?_ ?_ ?_ ?_ ?_
  · intro j hj
    have hj' := (Finset.mem_filter.1 hj).2
    rw [eq_ix1 j] at hj'
    exact Finset.mem_filter.2 ⟨Finset.mem_univ _, (resultIdx_ix1_iff d hiw hsd hiv idx (j 0) k).1 hj'⟩
  · intro i hi
    exact Finset.mem_filter.2 ⟨Finset.mem_univ _, (resultIdx_ix1_iff d hiw hsd hiv idx i k).2 (Finset.mem_filter.1 hi).2⟩
  · intro j _
    exact (eq_ix1 j).symm
  · intro i _
    rfl
  · intro j _
    exact congrArg u (eq_ix1 j)

end Cert.LibSegmentSum
-- ==== Proof.Stats.lean ====
/-
  The per-graph variance of a real-valued node array is a non-negative real.

  With `P` real-valued, graph `k` has `n` nodes `A = {i | g i = k}`: its count is `max (64 n) 1`, its sum and sum of
  squares run over `A` and the 64 channels, and `var = sumsq / cnt - (sum / cnt)^2` is the real number the
  Cauchy–Schwarz inequality bounds below by 0.
-/
import proofs.«400646_j24386824306904_1_alg».proof.Proof.Stages
import proofs.«400646_j24386824306904_1_alg».proof.Proof.LibGraphNorm
import proofs.«400646_j24386824306904_1_alg».proof.Proof.LibSegmentSum
import Idealize.ShloMosaic.PureOps.Ideal.Laws
import Idealize.ShloMosaic.Lib.ValueIdx

noncomputable section

open scoped BigOperators

namespace Cert.Stats

open Idealize.ShloMosaic Idealize.ShloMosaic.ValueIdx Cert.ReferenceIdeal Cert.ReferenceIdeal.Gen Cert.Stages Cert.LibGraphNorm

/-! ## The constants: the patterns of `1.0` and `64.0` denote the reals 1 and 64 -/

private theorem ofBits_one : Ideal.ofBits .f32 0x3F800000#32 = 1 := by
  simp [Ideal.ofBits, Ideal.ieee, -EReal.coe_mul]; norm_num

private theorem ofBits_64 : Ideal.ofBits .f32 0x42800000#32 = ((64 : ℝ) : EReal) := by
  simp [Ideal.ofBits, Ideal.ieee, -EReal.coe_mul]; norm_num

/-! ## Elementwise stages read at one index -/

private theorem hostDivf_apply {s : Shape} (x y : FVec Ideal s .f32) (j : s.Idx) :
    Host.divf x y j = Ideal.div (x j) (y j) := rfl

private theorem subf_apply {s : Shape} (x y : FVec Ideal s .f32) (j : s.Idx) : subf x y j = x j - y j := rfl

private theorem mulf_apply {s : Shape} (x y : FVec Ideal s .f32) (j : s.Idx) : mulf x y j = x j * y j := rfl

/-- The maximum of two reals, taken among the extended reals, is the real maximum. -/
private theorem coe_max (a b : ℝ) : max (a : EReal) (b : EReal) = ((max a b : ℝ) : EReal) :=
  (EReal.coe_strictMono.monotone.map_max).symm

/-- A count is at least 1, so never 0. -/
private theorem max_ne_zero (n : ℝ) : max (64 * n) 1 ≠ 0 :=
  ne_of_gt (lt_of_lt_of_le one_pos (le_max_right _ _))

/-! ## The segment sum and the channel sum at one index -/

/-- The nodes of graph `k`: the `i` whose id, read as a signed integer, is `k`. -/
private def nodes (g : IVec S100000 32) (k : Fin 512) : Finset (Fin 100000) :=
  Finset.univ.filter (fun i : Fin 100000 => (g (ix1 i)).toInt = (k.val : ℤ))

/-- The column of ids reads, at row `i`, the id of node `i`. -/
private theorem gCol_apply (g : IVec S100000 32) (i : Fin 100000) :
    gCol g (Idealize.ShloMosaic.StableHlo.Predicate.ixP i) = g (ix1 i) := by
  unfold gCol
  rw [Idealize.ShloMosaic.StableHlo.Predicate.bcast_col1]
  exact congrArg g (funext fun a => by match a with | ⟨0, _⟩ => rfl)

/-- The table every segment sum starts from is 0 at every graph. -/
private theorem zeroG_apply (k : Fin 512) : zeroG (F := Ideal) (ix1 k) = 0 := by
  unfold zeroG
  show Ideal.ofBits .f32 0x00000000#32 = 0
  exact Ideal.ofBits_zero_f32

/-- The segment sum at graph `k` is the sum over the nodes of graph `k`. -/
private theorem segSum_apply (g : IVec S100000 32) (r : FVec Ideal S100000 .f32) (k : Fin 512) :
    segSum (F := Ideal) g r (ix1 k) = ∑ i ∈ nodes g k, r (ix1 i) := by
  unfold segSum Host.scatterAdd
  rw [Ideal.hostScatterAdd_def]
  rw [Cert.LibSegmentSum.segment_sum_apply scatter_S512_S100000x1_S100000_n_0_0_1 rfl rfl rfl rfl]
  rw [zeroG_apply, zero_add]
  unfold nodes
  refine Finset.sum_congr ?_ fun _ _ => rfl
  refine Finset.filter_congr fun i _ => ?_
  rw [gCol_apply]

/-- The channel sum at node `i` is the sum over its 64 channels (the initial value is 0). -/
private theorem rowSum_apply (P : FVec Ideal S100000x64 .f32) (i : Fin 100000) :
    rowSum (F := Ideal) P (ix1 i) = ∑ c : Fin 64, P (ix2 i c) := by
  unfold rowSum
  simp only [Host.reduceAdd, Ideal.hostReduceAdd_def]
  rw [Ideal.hostReduceAdd_single reducesTo_S100000x64_S100000_d1 (by decide)]
  have h0 : constant (F := Ideal) S_ .f32 0x00000000#32 (Shape.Idx.first h_S_) = 0 := Ideal.ofBits_zero_f32
  rw [h0, zero_add]
  refine Finset.sum_congr rfl fun c _ => ?_
  exact congrArg P (funext fun a => Fin.ext (by match a with | ⟨0, _⟩ => rfl | ⟨1, _⟩ => rfl))

/-- The segment sum of the channel sums of a real-valued array is the real double sum over the graph's nodes and the
    channels. -/
private theorem segSum_rowSum_real (q : S100000x64.Idx → ℝ) (g : IVec S100000 32) (k : Fin 512) :
    segSum (F := Ideal) g (rowSum (F := Ideal) (fun j => ((q j : ℝ) : EReal))) (ix1 k)
      = ((∑ i ∈ nodes g k, ∑ c : Fin 64, q (ix2 i c) : ℝ) : EReal) := by
  rw [segSum_apply, ← Cert.LibSums.sum_coe]
  refine Finset.sum_congr rfl fun i _ => ?_
  rw [rowSum_apply, Cert.LibSums.sum_coe]

/-! ## Count, mean and variance at one graph -/

/-- The count of graph `k`: a sum of ones over its nodes is their number `n`, and the count is `max (64 n) 1`. -/
private theorem cnt_apply (g : IVec S100000 32) (k : Fin 512) :
    cnt (F := Ideal) g (ix1 k) = ((max (64 * ((nodes g k).card : ℝ)) 1 : ℝ) : EReal) := by
  unfold cnt maximumf mulf
  rw [segSum_apply]
  have h1 : ∀ (t : Shape) (h : S_.BroadcastsInDim t (![] : Fin 0 → Fin t.rank)) (b : BitVec 32) (j : t.Idx),
      broadcastInDim t ![] h (constant (F := Ideal) S_ .f32 b) j = Ideal.ofBits .f32 b := fun _ _ _ _ => rfl
  simp only [h1, Ideal.maximumf_def, Ideal.mulf_def, ofBits_one, ofBits_64]
  have hs : ∑ i ∈ nodes g k, (1 : EReal) = (((nodes g k).card : ℝ) : EReal) := by
    have h := Cert.LibSums.sum_coe (nodes g k) (fun _ => (1 : ℝ))
    have h2 : (∑ _i ∈ nodes g k, (1 : ℝ)) = ((nodes g k).card : ℝ) := by
      rw [Finset.sum_const, nsmul_eq_mul, mul_one]
    rw [h2] at h
    exact h
  rw [hs, ← EReal.coe_mul, ← EReal.coe_one, coe_max, mul_comm]

/-- The mean of a real-valued array at graph `k` is the real quotient of its sum by the count. -/
private theorem mean_apply (p : S100000x64.Idx → ℝ) (g : IVec S100000 32) (k : Fin 512) :
    mean (F := Ideal) (fun j => ((p j : ℝ) : EReal)) g (ix1 k)
      = (((∑ i ∈ nodes g k, ∑ c : Fin 64, p (ix2 i c)) / max (64 * ((nodes g k).card : ℝ)) 1 : ℝ) : EReal) := by
  unfold mean
  rw [hostDivf_apply, segSum_rowSum_real, cnt_apply, div_coe_coe _ _ (max_ne_zero _)]

/-- The variance of a real-valued array at graph `k` is the real number: mean of squares minus squared mean. -/
private theorem var_apply (p : S100000x64.Idx → ℝ) (g : IVec S100000 32) (k : Fin 512) :
    var (F := Ideal) (fun j => ((p j : ℝ) : EReal)) g (ix1 k)
      = (((∑ i ∈ nodes g k, ∑ c : Fin 64, p (ix2 i c) * p (ix2 i c)) / max (64 * ((nodes g k).card : ℝ)) 1
          - ((∑ i ∈ nodes g k, ∑ c : Fin 64, p (ix2 i c)) / max (64 * ((nodes g k).card : ℝ)) 1)
            * ((∑ i ∈ nodes g k, ∑ c : Fin 64, p (ix2 i c)) / max (64 * ((nodes g k).card : ℝ)) 1) : ℝ) : EReal) := by
  have hsq : mulf (F := Ideal) (φ := .f32) (fun j : S100000x64.Idx => ((p j : ℝ) : EReal)) (fun j => ((p j : ℝ) : EReal))
      = fun j => ((p j * p j : ℝ) : EReal) := by
    funext j
    rw [mulf_apply]
    exact (EReal.coe_mul _ _).symm
  unfold var
  rw [hsq, subf_apply, mulf_apply, hostDivf_apply, segSum_rowSum_real (fun j => p j * p j), cnt_apply,
    div_coe_coe _ _ (max_ne_zero _), mean_apply, ← EReal.coe_mul, ← EReal.coe_sub]

/-- The variance stage of a real-valued array at graph `k` is a non-negative real, whatever the graph ids are. -/
theorem var_real_nonneg (p : S100000x64.Idx → ℝ) (g : IVec S100000 32) (k : Fin 512) :
    ∃ v : ℝ, 0 ≤ v ∧ Cert.Stages.var (F := Ideal) (fun j => ((p j : ℝ) : EReal)) g (ix1 k) = (v : EReal) :=
  ⟨_, var_nonneg (nodes g k) (fun i c => p (ix2 i c)), var_apply p g k⟩

end Cert.Stats

end
-- ==== Proof.Finite.lean ====
/-
  Under finite inputs the node array before normalisation is real-valued.

  Every stage of the edge message — the two matrix products (finite sums of products), the bias rows, the gated
  unit `h * (1 / (1 + e^(-h)))`, the gathered source rows (entries of `x`), the clamp at zero — keeps real entries real;
  the aggregation adds finitely many of them into each node, and `(1 + eps) * x` is real.
-/
import proofs.«400646_j24386824306904_1_alg».proof.Proof.Gen.ReferenceIdeal.Read
import proofs.«400646_j24386824306904_1_alg».proof.Proof.Stages
import proofs.«400646_j24386824306904_1_alg».proof.Proof.LibGraphNorm

noncomputable section

open scoped BigOperators

namespace Cert.Finite

open Idealize.ShloMosaic Idealize.ShloMosaic.ValueIdx Cert.ReferenceIdeal Cert.ReferenceIdeal.Gen Cert.ReferenceIdeal.Read
open Cert.Stages Cert.LibGraphNorm

/-- The word of the float constant one denotes `1`. -/
private theorem ofBits_one : Ideal.ofBits .f32 0x3F800000#32 = 1 := by
  simp [Ideal.ofBits, Ideal.ieee, -EReal.coe_mul]; norm_num

/-- A broadcast of an array with real entries has real entries: each of its entries is one of the operand's. -/
private theorem isReal_broadcast {s t : Shape} (dims : Fin s.rank → Fin t.rank) (h : s.BroadcastsInDim t dims)
    (x : s.Idx → EReal) (hx : ∀ k, IsReal (x k)) (j : t.Idx) : IsReal (broadcastInDim t dims h x j) := hx _

/-- The gated unit `h * (1 / (1 + e^(-h)))` of a real is real. -/
private theorem isReal_silu {h : EReal} (hh : IsReal h) :
    IsReal (h * Ideal.div (Ideal.ofBits .f32 0x3F800000#32) (Ideal.ofBits .f32 0x3F800000#32 + Ideal.exp (-h))) := by
  rw [ofBits_one]
  exact hh.mul hh.one_div_one_add_exp_neg

section Stages

variable (x0 : (⟨S100000x64, .f32⟩ : BufTy).Contents (Elt Ideal)) (x1 : (⟨S2x1600000, .i32⟩ : BufTy).Contents (Elt Ideal))
  (x2 : (⟨S1600000x64, .f32⟩ : BufTy).Contents (Elt Ideal)) (x11 : (⟨S64x64, .f32⟩ : BufTy).Contents (Elt Ideal))
  (x12 : (⟨S64, .f32⟩ : BufTy).Contents (Elt Ideal)) (x13 : (⟨S64x64, .f32⟩ : BufTy).Contents (Elt Ideal))
  (x14 : (⟨S64, .f32⟩ : BufTy).Contents (Elt Ideal))

/-- The first matrix product: a finite sum of products of real entries. -/
private theorem isReal_v85 (h2 : ∀ j, IsReal (x2 j)) (h11 : ∀ j, IsReal (x11 j)) (i : S1600000x64.Idx) :
    IsReal (val_main_v85 (F := Ideal) x2 x11 i) := by
  rw [val_main_v85_apply]
  exact IsReal.sum _ _ fun k _ => (h2 _).mul (h11 _)

/-- The first bias row, repeated over the edges. -/
private theorem isReal_v87 (h12 : ∀ j, IsReal (x12 j)) (i : S1600000x64.Idx) : IsReal (val_main_v87 (F := Ideal) x12 i) := by
  rw [val_main_v87_apply, val_main_v86_apply]
  exact h12 _

/-- The first pre-activation `h = e W₁ + b₁`. -/
private theorem isReal_v88 (h2 : ∀ j, IsReal (x2 j)) (h11 : ∀ j, IsReal (x11 j)) (h12 : ∀ j, IsReal (x12 j))
    (i : S1600000x64.Idx) : IsReal (val_main_v88 (F := Ideal) x2 x11 x12 i) := by
  rw [val_main_v88_apply, Ideal.addf_def]
  exact (isReal_v85 x2 x11 h2 h11 i).add (isReal_v87 x12 h12 i)

/-- The gated unit of the first pre-activation. -/
private theorem isReal_v89 (h2 : ∀ j, IsReal (x2 j)) (h11 : ∀ j, IsReal (x11 j)) (h12 : ∀ j, IsReal (x12 j))
    (i : S1600000x64.Idx) : IsReal (val_main_v89 (F := Ideal) x2 x11 x12 i) := by
  simp only [val_main_v89_apply, val_main_call2_v5_apply, val_main_call2_v4_apply, val_main_call2_cst_0_apply,
    val_main_call2_v3_apply, val_main_call2_v2_apply, val_main_call2_cst_apply, val_main_call2_v1_apply,
    val_main_call2_v0_apply, Ideal.mulf_def, Ideal.hostDivf_def, Ideal.addf_def, Ideal.hostUnary_exp_def,
    Ideal.hostNegf_def, Ideal.negf_def, Ideal.ofBits_def]
  exact isReal_silu (isReal_v88 x2 x11 x12 h2 h11 h12 i)

/-- A gathered source row is a row of `x`, whatever the index. -/
private theorem isReal_v96 (h0 : ∀ j, IsReal (x0 j)) (i : S1600000x64.Idx) : IsReal (val_main_v96 (F := Ideal) x0 x1 i) :=
  h0 _

/-- The source row plus the gated edge feature, clamped at zero. -/
private theorem isReal_v99 (h0 : ∀ j, IsReal (x0 j)) (h2 : ∀ j, IsReal (x2 j)) (h11 : ∀ j, IsReal (x11 j))
    (h12 : ∀ j, IsReal (x12 j)) (i : S1600000x64.Idx) : IsReal (val_main_v99 (F := Ideal) x0 x1 x2 x11 x12 i) := by
  rw [val_main_v99_apply, val_main_v97_apply, val_main_v98_apply, val_main_cst_19_apply, Ideal.maximumf_def,
    Ideal.addf_def, Ideal.ofBits_def, Ideal.ofBits_zero_f32]
  exact ((isReal_v96 x0 x1 h0 i).add (isReal_v89 x2 x11 x12 h2 h11 h12 i)).max isReal_zero

/-- The second pre-activation: a matrix product plus the second bias row. -/
private theorem isReal_v103 (h0 : ∀ j, IsReal (x0 j)) (h2 : ∀ j, IsReal (x2 j)) (h11 : ∀ j, IsReal (x11 j))
    (h12 : ∀ j, IsReal (x12 j)) (h13 : ∀ j, IsReal (x13 j)) (h14 : ∀ j, IsReal (x14 j)) (i : S1600000x64.Idx) :
    IsReal (val_main_v103 (F := Ideal) x0 x1 x2 x11 x12 x13 x14 i) := by
  rw [val_main_v103_apply, val_main_v100_apply, val_main_v102_apply, val_main_v101_apply, Ideal.addf_def]
  exact (IsReal.sum _ _ fun k _ => (isReal_v99 x0 x1 x2 x11 x12 h0 h2 h11 h12 _).mul (h13 _)).add (h14 _)

/-- The edge message: the gated unit of the second pre-activation. -/
private theorem isReal_v104 (h0 : ∀ j, IsReal (x0 j)) (h2 : ∀ j, IsReal (x2 j)) (h11 : ∀ j, IsReal (x11 j))
    (h12 : ∀ j, IsReal (x12 j)) (h13 : ∀ j, IsReal (x13 j)) (h14 : ∀ j, IsReal (x14 j)) (i : S1600000x64.Idx) :
    IsReal (val_main_v104 (F := Ideal) x0 x1 x2 x11 x12 x13 x14 i) := by
  simp only [val_main_v104_apply, val_main_call3_v5_apply, val_main_call3_v4_apply, val_main_call3_cst_0_apply,
    val_main_call3_v3_apply, val_main_call3_v2_apply, val_main_call3_cst_apply, val_main_call3_v1_apply,
    val_main_call3_v0_apply, Ideal.mulf_def, Ideal.hostDivf_def, Ideal.addf_def, Ideal.hostUnary_exp_def,
    Ideal.hostNegf_def, Ideal.negf_def, Ideal.ofBits_def]
  exact isReal_silu (isReal_v103 x0 x1 x2 x11 x12 x13 x14 h0 h2 h11 h12 h13 h14 i)

end Stages

/-- A sum, entry by entry, of two arrays with real entries. -/
private theorem isReal_addf {s : Shape} (a b : FVec Ideal s .f32) (ha : ∀ i, IsReal (a i)) (hb : ∀ i, IsReal (b i))
    (j : s.Idx) : IsReal (addf a b j) := by
  show IsReal (a j + b j)
  exact (ha j).add (hb j)

/-- A product, entry by entry, of two arrays with real entries. -/
private theorem isReal_mulf {s : Shape} (a b : FVec Ideal s .f32) (ha : ∀ i, IsReal (a i)) (hb : ∀ i, IsReal (b i))
    (j : s.Idx) : IsReal (mulf a b j) := by
  show IsReal (a j * b j)
  exact (ha j).mul (hb j)

/-- A constant array of the float zero or of the float one has real entries. -/
private theorem isReal_constant_zero {s : Shape} (j : s.Idx) : IsReal (constant (F := Ideal) s .f32 0x00000000#32 j) := by
  show IsReal (Ideal.ofBits .f32 0x00000000#32)
  rw [Ideal.ofBits_zero_f32]
  exact isReal_zero

private theorem isReal_constant_one {s : Shape} (j : s.Idx) : IsReal (constant (F := Ideal) s .f32 0x3F800000#32 j) := by
  show IsReal (Ideal.ofBits .f32 0x3F800000#32)
  rw [ofBits_one]
  exact isReal_one

/-- An accumulating scatter of real updates into a real array: each entry is the operand's plus a finite sum of
    updates (those that land on it), whatever the indices are. -/
private theorem isReal_scatterAdd {s si su : Shape} (d : ScatterDims s si su) {w : Nat} (x : FVec Ideal s .f32)
    (idx : IVec si w) (upd : FVec Ideal su .f32) (hx : ∀ i, IsReal (x i)) (hu : ∀ i, IsReal (upd i)) (j : s.Idx) :
    IsReal (Host.scatterAdd d x idx upd j) := by
  unfold Host.scatterAdd
  rw [Ideal.hostScatterAdd_def]
  unfold Ideal.hostScatterAdd
  exact (hx j).add (IsReal.sum _ _ fun i _ => hu i)

/-- Summing real messages into an all-zero node array, and adding `(1 + eps) * x`, gives real entries. -/
private theorem isReal_outPre (msg : (⟨S1600000x64, .f32⟩ : BufTy).Contents (Elt Ideal))
    (ei : (⟨S2x1600000, .i32⟩ : BufTy).Contents (Elt Ideal)) (x : (⟨S100000x64, .f32⟩ : BufTy).Contents (Elt Ideal))
    (eps : (⟨S1, .f32⟩ : BufTy).Contents (Elt Ideal)) (hm : ∀ i, IsReal (msg i)) (hx : ∀ j, IsReal (x j))
    (he : ∀ j, IsReal (eps j)) (j : S100000x64.Idx) : IsReal (Cert.Stages.outPre (F := Ideal) msg ei x eps j) := by
  unfold Cert.Stages.outPre
  refine isReal_addf _ _ (isReal_scatterAdd _ _ _ _ (isReal_broadcast _ _ _ isReal_constant_zero) hm)
    (isReal_mulf _ _ (isReal_broadcast _ _ _ (isReal_broadcast _ _ _ ?_)) hx) j
  exact isReal_addf _ _ (isReal_broadcast _ _ _ isReal_constant_one) he

/-- The node array before normalisation, made from the reference's edge-message stage, has real entries when the
    inputs it reads do (the edge index may be anything: a gathered row is a row of `x`, a scattered message lands
    on a node or nowhere). -/
theorem outPre_isReal
    (x0 : (⟨S100000x64, .f32⟩ : BufTy).Contents (Elt Ideal)) (x1 : (⟨S2x1600000, .i32⟩ : BufTy).Contents (Elt Ideal))
    (x2 : (⟨S1600000x64, .f32⟩ : BufTy).Contents (Elt Ideal)) (x11 : (⟨S64x64, .f32⟩ : BufTy).Contents (Elt Ideal))
    (x12 : (⟨S64, .f32⟩ : BufTy).Contents (Elt Ideal)) (x13 : (⟨S64x64, .f32⟩ : BufTy).Contents (Elt Ideal))
    (x14 : (⟨S64, .f32⟩ : BufTy).Contents (Elt Ideal)) (x15 : (⟨S1, .f32⟩ : BufTy).Contents (Elt Ideal))
    (h0 : ∀ j, IsReal (x0 j)) (h2 : ∀ j, IsReal (x2 j)) (h11 : ∀ j, IsReal (x11 j)) (h12 : ∀ j, IsReal (x12 j))
    (h13 : ∀ j, IsReal (x13 j)) (h14 : ∀ j, IsReal (x14 j)) (h15 : ∀ j, IsReal (x15 j)) :
    ∀ j, IsReal (Cert.Stages.outPre (F := Ideal) (val_main_v104 (F := Ideal) x0 x1 x2 x11 x12 x13 x14) x1 x0 x15 j) := by
  intro j
  exact isReal_outPre _ x1 x0 x15 (isReal_v104 x0 x1 x2 x11 x12 x13 x14 h0 h2 h11 h12 h13 h14) h0 h15 j

end Cert.Finite

end
-- ==== Proof.PreFacts.lean ====
/-
  What the precondition says: the float inputs the second branch reads are finite, and every graph id lies in
  `[0, 512)`.
-/
import proofs.«400646_j24386824306904_1_alg».proof.Pre_finite_inputs
import proofs.«400646_j24386824306904_1_alg».proof.Proof.Gen.Pre_finite_inputs
import proofs.«400646_j24386824306904_1_alg».proof.Proof.LibGraphNorm
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs Cert.Pre_finite_inputs.Gen Cert.LibGraphNorm

/-- The rank-zero shape has exactly one index. -/
private instance subsingleton_scalar_idx : Subsingleton S_.Idx := ⟨fun _ _ => funext fun d => d.elim0⟩

/-- The pattern `0x7F800000` denotes `+∞`. -/
private theorem inf_bits : Ideal.ofBits .f32 0x7F800000#32 = (⊤ : EReal) := by
  simp [Ideal.ofBits, Ideal.ieee]

/-- An extended real whose absolute value `max x (-x)` is below `+∞` is a real. -/
private theorem isReal_of_abs_lt_top (x : EReal) (h : max x (-x) < ⊤) : IsReal x := by
  induction x using EReal.rec with
  | bot => simp at h
  | coe r => exact ⟨r, rfl⟩
  | top => simp at h

/-- The conjunction over all entries of `|a| < +∞` being one says every entry of `a` is a real, at any shape. -/
private theorem real_of_all {S : Shape} {axes : List (Fin S.rank)} (hb : S_.BroadcastsInDim S (![] : Fin 0 → Fin S.rank))
    (hr : S.ReducesTo axes S_) (h0 : 0 < S_.numel) (a : FVec Ideal S .f32) (init : IVec S_ 1) (j0 : S_.Idx)
    (e : Host.reduce IntOp.andi (cmpf .olt (Host.absf a) (broadcastInDim S ![] hb (constant (F := Ideal) S_ .f32 0x7F800000#32)))
      init hr h0 j0 = 1#1) :
    ∀ j, IsReal (a j) := by
  intro j
  have hj : Ideal.cmp .olt (max (a j) (-(a j))) (Ideal.ofBits .f32 0x7F800000#32) = 1#1 :=
    Host.reduce_andi_all _ init hr h0 j0 e j
  rw [inf_bits] at hj
  simp only [Ideal.cmp, StableHlo.Predicate.ofBool_eq_one_iff, decide_eq_true_eq] at hj
  exact isReal_of_abs_lt_top _ hj

/-- The conjunction over all entries of `c ≤ a`, on signed words, being one says every entry, read signed, is at least `c`. -/
private theorem sge_of_all {S : Shape} {axes : List (Fin S.rank)} (hb : S_.BroadcastsInDim S (![] : Fin 0 → Fin S.rank))
    (hr : S.ReducesTo axes S_) (h0 : 0 < S_.numel) (a : IVec S 32) (c : BitVec 32) (init : IVec S_ 1) (j0 : S_.Idx)
    (e : Host.reduce IntOp.andi (cmpi .sge a (broadcastInDim S ![] hb (constantI S_ 32 c))) init hr h0 j0 = 1#1) :
    ∀ j, c.toInt ≤ (a j).toInt := by
  intro j
  have hj : IntOp.cmpi .sge (a j) c = 1#1 := Host.reduce_andi_all _ init hr h0 j0 e j
  exact IntOp.cmpi_sge.1 hj

/-- The conjunction over all entries of `a < c`, on signed words, being one says every entry, read signed, is below `c`. -/
private theorem slt_of_all {S : Shape} {axes : List (Fin S.rank)} (hb : S_.BroadcastsInDim S (![] : Fin 0 → Fin S.rank))
    (hr : S.ReducesTo axes S_) (h0 : 0 < S_.numel) (a : IVec S 32) (c : BitVec 32) (init : IVec S_ 1) (j0 : S_.Idx)
    (e : Host.reduce IntOp.andi (cmpi .slt a (broadcastInDim S ![] hb (constantI S_ 32 c))) init hr h0 j0 = 1#1) :
    ∀ j, (a j).toInt < c.toInt := by
  intro j
  have hj : IntOp.cmpi .slt (a j) c = 1#1 := Host.reduce_andi_all _ init hr h0 j0 e j
  exact IntOp.cmpi_slt.1 hj

/-- The printed precondition, all ones, gives: the node features, the edge features, the second branch's weights,
    biases, epsilon, scale and shift are real-valued, and every graph id read as a signed integer is in `[0, 512)`. -/
theorem of_fn
    (a0 : FVec Ideal S100000x64 .f32) (a1 : IVec S2x1600000 32) (a2 : FVec Ideal S1600000x64 .f32) (a3 : IVec S100000 32)
    (a4 : FVec Ideal S64x64 .f32) (a5 : FVec Ideal S64 .f32) (a6 : FVec Ideal S64x64 .f32) (a7 : FVec Ideal S64 .f32)
    (a8 : FVec Ideal S1 .f32) (a9 : FVec Ideal S64 .f32) (a10 : FVec Ideal S64 .f32) (a11 : FVec Ideal S64x64 .f32)
    (a12 : FVec Ideal S64 .f32) (a13 : FVec Ideal S64x64 .f32) (a14 : FVec Ideal S64 .f32) (a15 : FVec Ideal S1 .f32)
    (a16 : FVec Ideal S64 .f32) (a17 : FVec Ideal S64 .f32)
    (h : Cert.Pre_finite_inputs.fn (F := Ideal) a0 a1 a2 a3 a4 a5 a6 a7 a8 a9 a10 a11 a12 a13 a14 a15 a16 a17 = (fun _ => 1#1)) :
    (∀ j, IsReal (a0 j)) ∧ (∀ j, IsReal (a2 j)) ∧ (∀ j, IsReal (a11 j)) ∧ (∀ j, IsReal (a12 j)) ∧ (∀ j, IsReal (a13 j))
      ∧ (∀ j, IsReal (a14 j)) ∧ (∀ j, IsReal (a15 j)) ∧ (∀ j, IsReal (a16 j)) ∧ (∀ j, IsReal (a17 j))
      ∧ (∀ j, 0 ≤ (a3 j).toInt ∧ (a3 j).toInt < 512) := by
  have e := congrFun h ValueIdx.ix0
  dsimp only [fn, fn_part1, fn_part2, fn_part3, fn_part4, fn_part5, andi] at e
  simp only [IntOp.andi_eq_one] at e
  obtain ⟨⟨⟨⟨⟨⟨⟨⟨⟨⟨⟨⟨⟨⟨⟨⟨⟨e0, e2⟩, _⟩, _⟩, _⟩, _⟩, _⟩, _⟩, _⟩, e11⟩, e12⟩, e13⟩, e14⟩, e15⟩, e16⟩, e17⟩, e3ge⟩, e3lt⟩ := e
  have z0 : (0#32 : BitVec 32).toInt = 0 := by decide
  have z512 : (512#32 : BitVec 32).toInt = 512 := by decide
  refine ⟨real_of_all _ _ _ a0 _ _ e0, real_of_all _ _ _ a2 _ _ e2, real_of_all _ _ _ a11 _ _ e11,
    real_of_all _ _ _ a12 _ _ e12, real_of_all _ _ _ a13 _ _ e13, real_of_all _ _ _ a14 _ _ e14,
    real_of_all _ _ _ a15 _ _ e15, real_of_all _ _ _ a16 _ _ e16, real_of_all _ _ _ a17 _ _ e17, fun j => ⟨?_, ?_⟩⟩
  · have hge := sge_of_all _ _ _ a3 0#32 _ _ e3ge j
    rwa [z0] at hge
  · have hlt := slt_of_all _ _ _ a3 512#32 _ _ e3lt j
    rwa [z512] at hlt

end Cert.PreFacts

end
-- ==== Proof.Consts.lean ====
/-
  The epsilon under the square root: the f32 literal nearest to 1e-5 denotes a positive real number.
-/
import Idealize.ShloMosaic.PureOps.Ideal
import Mathlib.Data.EReal.Operations

namespace Cert.Consts

open Idealize.ShloMosaic

/-- The word `0x3727C5AC` has sign bit 0, exponent field 110 and fraction field 2606508: a normal number,
    `(2^23 + 2606508) * 2^(110 - 127 - 23) = 10995116 * 2^(-40)`. -/
private theorem eps_val :
    Ideal.ofBits .f32 0x3727C5AC#32 = (((10995116 : ℝ) * (2 : ℝ) ^ (-40 : ℤ) : ℝ) : EReal) := by
  simp [Ideal.ofBits, Ideal.ieee, -EReal.coe_mul]

/-- The word `0x3727C5AC` read as an f32 is a positive real. -/
theorem eps_pos : ∃ e : ℝ, 0 < e ∧ Ideal.ofBits .f32 0x3727C5AC#32 = (e : EReal) :=
  ⟨(10995116 : ℝ) * (2 : ℝ) ^ (-40 : ℤ), by positivity, eps_val⟩

/-- The zero word is zero. -/
theorem zero_word : Ideal.ofBits .f32 0x00000000#32 = 0 := by
  -- all three fields are 0: the subnormal branch, with significand 0
  simp [Ideal.ofBits, Ideal.ieee]

end Cert.Consts
-- ==== Proof.Bridge.lean ====
/-
  The two programs compute one array.

  Both results are, at node `i` and channel `d`, a function of the same node array `P` (the aggregated edge messages
  plus `(1 + eps) * x`: the first region's message array is the reference's message stage, and the host operations
  after it are the reference's own), of the graph ids `g`, the scale, the shift and the residual input.  With
  `k = g i` in `[0, 512)` (the precondition): the kernel fetches the mean and the variance of graph `k` by a one-hot
  weighted sum, the reference by a gather at the wrapped id — both read entry `k`.  What remains is
  `a * (v + eps)^(-1/2) = a / sqrt (v + eps)`, true for every extended real `a` once `v + eps` is a positive real:
  `v = var P g k` is a non-negative real because `P` is real-valued under finite inputs and a variance is non-negative.
-/
import proofs.«400646_j24386824306904_1_alg».proof.Defs
import proofs.«400646_j24386824306904_1_alg».proof.Proof.Gen.Pre_finite_inputs
import proofs.«400646_j24386824306904_1_alg».proof.Proof.HostStages
import proofs.«400646_j24386824306904_1_alg».proof.Proof.EdgeRegion
import proofs.«400646_j24386824306904_1_alg».proof.Proof.NormRegion
import proofs.«400646_j24386824306904_1_alg».proof.Proof.RefRead
import proofs.«400646_j24386824306904_1_alg».proof.Proof.RefStages
import proofs.«400646_j24386824306904_1_alg».proof.Proof.Stats
import proofs.«400646_j24386824306904_1_alg».proof.Proof.Finite
import proofs.«400646_j24386824306904_1_alg».proof.Proof.PreFacts
import proofs.«400646_j24386824306904_1_alg».proof.Proof.Consts

set_option maxRecDepth 16384

noncomputable section

open scoped BigOperators

namespace Cert.Bridge

open Idealize.ShloMosaic Idealize.ShloMosaic.TcCoe Idealize.ShloMosaic.ValueIdx Idealize.SL.Sem
open Cert.LibGraphNorm Cert.NormSpec

/-- The normalisation kernel's formula, for a node of graph `k` whose variance entry is a non-negative real: the
    one-hot sums read entry `k`, and the product with the reciprocal square root is the quotient by the square root. -/
theorem normAt_eq (P : (⟨2, ![100000, 64]⟩ : Shape).Idx → EReal) (G : (⟨2, ![100000, 1]⟩ : Shape).Idx → BitVec 32)
    (M Vr : (⟨2, ![1, 512]⟩ : Shape).Idx → EReal) (Γ B : (⟨2, ![1, 64]⟩ : Shape).Idx → EReal)
    (X : (⟨2, ![100000, 64]⟩ : Shape).Idx → EReal) (i : Fin 100000) (d : Fin 64) (k : Fin 512)
    (hk : G (ix2 i (0 : Fin 1)) = BitVec.ofNat 32 k.val) (v : ℝ) (hv : 0 ≤ v) (hV : Vr (ix2 (0 : Fin 1) k) = (v : EReal)) :
    normAt P G M Vr Γ B X i d
      = max ((Ideal.div (P (ix2 i d) - M (ix2 (0 : Fin 1) k))
                (Ideal.sqrt (Vr (ix2 (0 : Fin 1) k) + Ideal.ofBits .f32 0x3727C5AC#32))
              * Γ (ix2 (0 : Fin 1) d) + B (ix2 (0 : Fin 1) d)) + X (ix2 i d)) 0 := by
  obtain ⟨e, he, hE⟩ := Cert.Consts.eps_pos
  have hpM : pick (G (ix2 i (0 : Fin 1))) M = M (ix2 (0 : Fin 1) k) :=
    sum_oneHot_mul _ (fun k => M (ix2 (0 : Fin 1) k)) k hk
  have hpV : pick (G (ix2 i (0 : Fin 1))) Vr = Vr (ix2 (0 : Fin 1) k) :=
    sum_oneHot_mul _ (fun k => Vr (ix2 (0 : Fin 1) k)) k hk
  unfold normAt
  rw [hpM, hpV, hV, hE, ← EReal.coe_add, mul_rsqrt_eq_div_sqrt _ (by linarith : 0 < v + e)]

section

open Cert.KernelIdeal Cert.KernelIdeal.Gen

variable (m : (ℓ : Loc nD τ sig) → Buf (Elt Ideal) ℓ) (ρ : Dev nD → PrngReg)

/-- Under the precondition, the reference's result stage of the kernel's own launch arguments is the array the
    kernel's run leaves in its result buffer. -/
theorem result_eq (hpre : Cert.Pre_KernelIdeal m) (c : Dev nD) :
    Cert.ReferenceIdeal.Read.val_main_v166 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg11)) (m ((c.tc : Thread nD τ).loc main_arg12))
        (m ((c.tc : Thread nD τ).loc main_arg13)) (m ((c.tc : Thread nD τ).loc main_arg14))
        (m ((c.tc : Thread nD τ).loc main_arg15)) (m ((c.tc : Thread nD τ).loc main_arg16))
        (m ((c.tc : Thread nD τ).loc main_arg17))
      = (W4 m ρ c (Proc.devRef .tc main_v49) : S100000x64.Idx → EReal) := by
  rw [Cert.RefStages.out_eq]
  -- what the precondition gives
  obtain ⟨h0, h2, h11, h12, h13, h14, h15, -, -, hg⟩ := Cert.PreFacts.of_fn _ _ _ _ _ _ _ _ _ _ _ _ _ _ _ _ _ _ (hpre c)
  -- the node array before normalisation, one function on both sides
  have hP : (V3 m ρ c main_v22 : FVec Ideal Cert.ReferenceIdeal.S100000x64 .f32)
      = Cert.Stages.outPre (F := Ideal)
          (Cert.ReferenceIdeal.Read.val_main_v104 (F := Ideal) (m ((c.tc : Thread nD τ).loc main_arg0))
            (m ((c.tc : Thread nD τ).loc main_arg1)) (m ((c.tc : Thread nD τ).loc main_arg2))
            (m ((c.tc : Thread nD τ).loc main_arg11)) (m ((c.tc : Thread nD τ).loc main_arg12))
            (m ((c.tc : Thread nD τ).loc main_arg13)) (m ((c.tc : Thread nD τ).loc main_arg14)))
          (m ((c.tc : Thread nD τ).loc main_arg1)) (m ((c.tc : Thread nD τ).loc main_arg0))
          (m ((c.tc : Thread nD τ).loc main_arg15)) := by
    rw [Cert.KernelIdeal.HostStages.V3_v22 m ρ c, Cert.KernelIdeal.EdgeRegion.msg_eq m ρ c]
  -- it is real-valued
  obtain ⟨p, hp⟩ := exists_real_fun _ (Cert.Finite.outPre_isReal _ (m ((c.tc : Thread nD τ).loc main_arg1)) _ _ _ _ _ _
    h0 h2 h11 h12 h13 h14 h15)
  funext j
  obtain ⟨i, d, rfl⟩ : ∃ (i : Fin 100000) (d : Fin 64), j = ix2 i d := ⟨j 0, j 1, eq_ix2 j⟩
  -- the node's graph number
  obtain ⟨hg0, hg1⟩ := hg (ix1 i)
  have hklt : ((m ((c.tc : Thread nD τ).loc main_arg3)) (ix1 i)).toInt.toNat < 512 := by omega
  have hk : (m ((c.tc : Thread nD τ).loc main_arg3)) (ix1 i)
      = BitVec.ofNat 32 (⟨_, hklt⟩ : Fin 512).val := by
    apply BitVec.eq_of_toInt_eq
    show _ = (BitVec.ofNat 32 ((m ((c.tc : Thread nD τ).loc main_arg3)) (ix1 i)).toInt.toNat).toInt
    rw [BitVec.toInt_eq_toNat_cond (BitVec.ofNat 32 _), BitVec.toNat_ofNat, Nat.mod_eq_of_lt (by omega),
      if_pos (by omega)]
    exact (Int.toNat_of_nonneg hg0).symm
  -- the variance of the node's graph
  obtain ⟨v, hv, hvar⟩ := Cert.Stats.var_real_nonneg p (m ((c.tc : Thread nD τ).loc main_arg3)) ⟨_, hklt⟩
  rw [← hp] at hvar
  -- the kernel's side
  rw [Cert.KernelIdeal.NormRegion.out_apply m ρ c i d,
    normAt_eq _ _ _ _ _ _ _ i d ⟨_, hklt⟩
      (by rw [Cert.KernelIdeal.HostStages.V3_v44 m ρ c, Cert.KernelIdeal.HostStages.colN_apply]; exact hk) v hv
      (by rw [Cert.KernelIdeal.HostStages.V3_v48 m ρ c, Cert.KernelIdeal.HostStages.row512_apply, hP]; exact hvar),
    Cert.KernelIdeal.HostStages.V3_v47 m ρ c, Cert.KernelIdeal.HostStages.V3_v48 m ρ c,
    Cert.KernelIdeal.HostStages.V3_v45 m ρ c, Cert.KernelIdeal.HostStages.V3_v46 m ρ c,
    Cert.KernelIdeal.HostStages.V3_arg0 m ρ c, Cert.KernelIdeal.HostStages.row512_apply,
    Cert.KernelIdeal.HostStages.row512_apply, Cert.KernelIdeal.HostStages.row64_apply,
    Cert.KernelIdeal.HostStages.row64_apply, hP]
  -- the reference's side
  exact Cert.RefRead.refOut_apply _ _ _ _ _ i d ⟨_, hklt⟩ hk

end

end Cert.Bridge

end
-- ==== Proof.lean ====
/-
  A residual graph block: two rounds of edge-conditioned message passing, a per-graph normalisation, a residual
  connection and a clamp at zero, over 100000 nodes of 64 channels, 1600000 edges and 512 graphs.

  The reference computes the first round and discards it; its result depends on the second round only.  For each
  edge it forms `msg = u(max(x[src] + u(e · We + be), 0) · Wm + bm)` with `u(h) = h / (1 + exp(-h))`, adds the
  messages into their destination nodes, adds `(1 + eps) * x`, and normalises the node array `P` per graph:
  with `cnt = max(64 · #nodes, 1)`, `mean = sum P / cnt`, `var = sum P² / cnt − mean²`, the result is
  `max(((P − mean[g]) / sqrt(var + 1e-5)[g]) · gamma + beta + x, 0)`.

  The kernel program computes the messages in one kernel over blocks of 12800 edges (its matrix products into a
  zero accumulator are the same finite sums; narrowing a float format is the identity on exact values; its gated
  unit is the same expression), lets the host aggregate and take the statistics exactly as the reference does, and
  normalises in a second kernel over blocks of 5000 nodes, fetching a node's mean and variance by a one-hot
  weighted sum over the 512 graph numbers and multiplying by the reciprocal square root.

  The two agree when every graph id lies in `[0, 512)` — outside it the reference's gather reads out of range, and
  the precondition states the range — because then both fetch graph `g i`'s entry, and because
  `a · (v + eps)^(-1/2) = a / sqrt(v + eps)` for every extended real `a` once `v + eps` is a positive real:
  under finite inputs every stage up to `P` is real-valued, and a variance computed as mean of squares minus
  squared mean over the true number of entries is non-negative (Cauchy–Schwarz).

  The three frames: the two kernel programs' are the frame certificates over the launch of their two regions; the
  reference has no kernel, and its frame is its run with the result dropped.  The idealization rewrote nothing,
  so it is preserved trivially.
-/
import proofs.«400646_j24386824306904_1_alg».proof.Defs
import proofs.«400646_j24386824306904_1_alg».proof.Proof.Gen.Kernel
import proofs.«400646_j24386824306904_1_alg».proof.Proof.PatchedKernelFrame
import proofs.«400646_j24386824306904_1_alg».proof.Proof.Gen.KernelIdeal
import proofs.«400646_j24386824306904_1_alg».proof.Proof.KernelIdealRun
import proofs.«400646_j24386824306904_1_alg».proof.Proof.Gen.ReferenceIdeal
import proofs.«400646_j24386824306904_1_alg».proof.Proof.Gen.ReferenceIdeal.Run
import proofs.«400646_j24386824306904_1_alg».proof.Proof.Gen.ReferenceIdeal.Read
import proofs.«400646_j24386824306904_1_alg».proof.Proof.Gen.Pre_finite_inputs
import proofs.«400646_j24386824306904_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and the reference's result is the array the
    kernel program's second region leaves: `Bridge.result_eq` at the kernel's own arguments. -/
theorem algebraic : Cert.algebraic_KernelIdeal_ReferenceIdeal := by
  intro m ρ m' ρ' hpre hagree
  refine ⟨fun c => Cert.KernelIdeal.Gen.W4 m ρ c (Proc.devRef .tc Cert.KernelIdeal.main_v49),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, -, -, -, -, -, -, -, a11, a12, a13, a14, a15, a16, a17⟩ := hagree c
  rw [Cert.ReferenceIdeal.Read.val_main_v166_eq, a0, a1, a2, a3, a11, a12, a13, a14, a15, a16, a17]
  exact Cert.Bridge.result_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
